-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel

variable [Facts]

def fn {F : FTy → Type} [FloatOps F] (main_arg0 : FVec F S2048x4096 .f32) (main_arg1 : FVec F S2048x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  main_v8
-- ==== Kernel.lean ====
abbrev S2048x4096 : Shape := ⟨2, ![2048, 4096]⟩
abbrev S8388608 : Shape := ⟨1, ![8388608]⟩
abbrev S65536x128 : Shape := ⟨2, ![65536, 128]⟩
abbrev S2x3x8x128 : Shape := ⟨4, ![2, 3, 8, 128]⟩
abbrev S4096x128 : Shape := ⟨2, ![4096, 128]⟩
abbrev S1x3x8x128 : Shape := ⟨4, ![1, 3, 8, 128]⟩
abbrev S3x8x128 : Shape := ⟨3, ![3, 8, 128]⟩
abbrev S512x8x128 : Shape := ⟨3, ![512, 8, 128]⟩
abbrev S8x128 : Shape := ⟨2, ![8, 128]⟩
abbrev S1x8x128 : Shape := ⟨3, ![1, 8, 128]⟩
abbrev S_ : Shape := ⟨0, ![]⟩
abbrev S3 : Shape := ⟨1, ![3]⟩
abbrev S1 : Shape := ⟨1, ![1]⟩

abbrev nBuf : Space → Nat
  | .hbm => 24
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S8388608, .f32⟩
  | .hbm, ⟨3, _⟩ => ⟨S8388608, .f32⟩
  | .hbm, ⟨4, _⟩ => ⟨S65536x128, .f32⟩
  | .hbm, ⟨5, _⟩ => ⟨S65536x128, .f32⟩
  | .hbm, ⟨6, _⟩ => ⟨S2x3x8x128, .f32⟩
  | .hbm, ⟨7, _⟩ => ⟨S_, .f32⟩
  | .hbm, ⟨8, _⟩ => ⟨S3, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x3x8x128, .f32⟩
  | .local _ .vmem, ⟨5, _⟩ => ⟨S1x3x8x128, .f32⟩
  | .local _ .vmem, ⟨6, _⟩ => ⟨S3x8x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2048x4096_S8388608 : S2048x4096.ShapeCasts S8388608
  shapeCasts_S8388608_S65536x128 : S8388608.ShapeCasts S65536x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S4096x128_S512x8x128 : S4096x128.ShapeCasts S512x8x128
  reduces_S512x8x128_S8x128 : S512x8x128.Reduces [0] S8x128
  inb_S3x8x128_S1x8x128_0_0_0 : ∀ a, (![0, 0, 0] : Fin 3 → Nat) a + S1x8x128.size a ≤ S3x8x128.size a
  h_S1x8x128 : 0 < S1x8x128.numel
  shapeCasts_S1x8x128_S8x128 : S1x8x128.ShapeCasts S8x128
  shapeCasts_S8x128_S1x8x128 : S8x128.ShapeCasts S1x8x128
  inb_S3x8x128_S1x8x128_1_0_0 : ∀ a, (![1, 0, 0] : Fin 3 → Nat) a + S1x8x128.size a ≤ S3x8x128.size a
  inb_S3x8x128_S1x8x128_2_0_0 : ∀ a, (![2, 0, 0] : Fin 3 → Nat) a + S1x8x128.size a ≤ S3x8x128.size a
  inb_S3x8x128_S3x8x128_0_0_0 : ∀ a, (![0, 0, 0] : Fin 3 → Nat) a + S3x8x128.size a ≤ S3x8x128.size a
  h_S3x8x128 : 0 < S3x8x128.numel
  inb_S1x3x8x128_S1x3x8x128_0_0_0_0 : ∀ a, (![0, 0, 0, 0] : Fin 4 → Nat) a + S1x3x8x128.size a ≤ S1x3x8x128.size a
  h_S1x3x8x128 : 0 < S1x3x8x128.numel
  shapeCasts_S1x3x8x128_S3x8x128 : S1x3x8x128.ShapeCasts S3x8x128
  shapeCasts_S3x8x128_S1x3x8x128 : S3x8x128.ShapeCasts S1x3x8x128
  reducesTo_S2x3x8x128_S3_d0_2_3 : S2x3x8x128.ReducesTo [0, 2, 3] S3
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x8x128.size a ≤ S2x3x8x128.size a
  hwx0_2 : ∀ i : grid0.Coords, EltTy.bits .f32 = 32 ∨ (Rect.block (s := S2x3x8x128) S1x3x8x128.size (cc0_transform_2 i) (hinb0_2 i)).WholeWords (EltTy.packing .f32)

variable [Facts₀]

abbrev win0_0 : Pipeline.Window sig grid0 :=
  Pipeline.Window.ofSpec (Memref.whole main_v2) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S2048x4096 : Shape := ⟨2, ![2048, 4096]⟩
abbrev S8388608 : Shape := ⟨1, ![8388608]⟩
abbrev S65536x128 : Shape := ⟨2, ![65536, 128]⟩
abbrev S2x3x8x128 : Shape := ⟨4, ![2, 3, 8, 128]⟩
abbrev S2048x128 : Shape := ⟨2, ![2048, 128]⟩
abbrev S1x3x8x128 : Shape := ⟨4, ![1, 3, 8, 128]⟩
abbrev S1x2048x128 : Shape := ⟨3, ![1, 2048, 128]⟩
abbrev S1 : Shape := ⟨1, ![1]⟩
abbrev S1x1x1 : Shape := ⟨3, ![1, 1, 1]⟩
abbrev S8x128 : Shape := ⟨2, ![8, 128]⟩
abbrev S1x1x8x128 : Shape := ⟨4, ![1, 1, 8, 128]⟩
abbrev S2x3x1x1 : Shape := ⟨4, ![2, 3, 1, 1]⟩
abbrev S2x3 : Shape := ⟨2, ![2, 3]⟩
abbrev S_ : Shape := ⟨0, ![]⟩
abbrev S3 : Shape := ⟨1, ![3]⟩

abbrev nBuf : Space → Nat
  | .hbm => 26
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S8388608, .f32⟩
  | .hbm, ⟨3, _⟩ => ⟨S8388608, .f32⟩
  | .hbm, ⟨4, _⟩ => ⟨S65536x128, .f32⟩
  | .hbm, ⟨5, _⟩ => ⟨S65536x128, .f32⟩
  | .hbm, ⟨6, _⟩ => ⟨S2x3x8x128, .f32⟩
  | .hbm, ⟨7, _⟩ => ⟨S2x3x1x1, .f32⟩
  | .hbm, ⟨8, _⟩ => ⟨S2x3, .f32⟩
  | .hbm, ⟨9, _⟩ => ⟨S_, .f32⟩
  | .hbm, ⟨10, _⟩ => ⟨S3, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x3x8x128, .f32⟩
  | .local _ .vmem, ⟨5, _⟩ => ⟨S1x3x8x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_16 : BitVec 32 := 0#32
  let v27 : BitVec 1 := Scalar.cmpi .ne v26 c0_i32_16
  v27

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2048x4096_S8388608 : S2048x4096.ShapeCasts S8388608
  shapeCasts_S8388608_S65536x128 : S8388608.ShapeCasts S65536x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S2048x128_S1x2048x128 : S2048x128.ShapeCasts S1x2048x128
  reduces_S1x2048x128_S1 : S1x2048x128.Reduces [1, 2] S1
  shapeCasts_S1_S1x1x1 : S1.ShapeCasts S1x1x1
  inpos_S1x1x1_p0_0_0 : ∀ a, (![0, 0, 0] : Fin 3 → Nat) a < S1x1x1.size a
  inb_S1x3x8x128_S1x1x8x128_0_0_0_0 : ∀ a, (![0, 0, 0, 0] : Fin 4 → Nat) a + S1x1x8x128.size a ≤ S1x3x8x128.size a
  h_S1x1x8x128 : 0 < S1x1x8x128.numel
  shapeCasts_S1x1x8x128_S8x128 : S1x1x8x128.ShapeCasts S8x128
  shapeCasts_S8x128_S1x1x8x128 : S8x128.ShapeCasts S1x1x8x128
  inb_S1x3x8x128_S1x1x8x128_0_1_0_0 : ∀ a, (![0, 1, 0, 0] : Fin 4 → Nat) a + S1x1x8x128.size a ≤ S1x3x8x128.size a
  inb_S1x3x8x128_S1x1x8x128_0_2_0_0 : ∀ a, (![0, 2, 0, 0] : Fin 4 → Nat) a + S1x1x8x128.size a ≤ S1x3x8x128.size a
  slices_S2x3x8x128_S2x3x1x1_0_0_0_0 : S2x3x8x128.Slices ![0, 0, 0, 0] S2x3x1x1
  shapeCasts_S2x3x1x1_S2x3 : S2x3x1x1.ShapeCasts S2x3
  reducesTo_S2x3_S3_d0 : S2x3.ReducesTo [0] S3
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x8x128.size a ≤ S2x3x8x128.size a
  hwx0_2 : ∀ i : grid0.Coords, EltTy.bits .f32 = 32 ∨ (Rect.block (s := S2x3x8x128) S1x3x8x128.size (cc0_transform_2 i) (hinb0_2 i)).WholeWords (EltTy.packing .f32)

variable [Facts₀]

abbrev win0_0 : Pipeline.Window sig grid0 :=
  Pipeline.Window.ofSpec (Memref.whole main_v2) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== Proof.Kernel.Shared.lean ====
/-
  The streaming kernel's body, case by case: what the three conditionals on the step coordinate decide, and where the
  output window is idle.

  The grid is 2 cores x 8 steps, sixteen points in row-major order, so point t is step t % 8 of core t / 8. The body
  first reduces its two 4096 x 128 input blocks to three 8 x 128 partial sums; at a core's FIRST step (t % 8 = 0) it stores
  them into the 3 x 8 x 128 accumulator, at every LATER step (t % 8 ≠ 0) it adds them to what the accumulator holds, and at the
  LAST step (t % 8 = 7) it also copies the accumulator into the output block, which is written back only then.
-/
import proofs.«151391_g2000509514383055_pallasbulk_1306_2_alg».proof.Proof.Gen.Kernel.Frame
import proofs.«151391_g2000509514383055_pallasbulk_1306_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions, as the body computes them from the step coordinate -/

/-- "This is the core's first step": the body's first conditional. -/
abbrev isFirst (i : grid0.Coords) : Prop :=
  (Scalar.cmpi .ne (Scalar.extui (Scalar.cmpi .eq (BitVec.ofNat 32 (i 1).val) 0#32)) 0#32) = 1#1
/-- It holds exactly at the points whose step is 0. -/
theorem isFirst_iff : ∀ t : Fin cfg0.N, isFirst (grid0.coords t) ↔ t.val % 8 = 0 :=
  (by decide +kernel : ∀ t : Fin grid0.N, isFirst (grid0.coords t) ↔ t.val % 8 = 0)

/-- "This is a later step": the body's second conditional (a signed comparison with zero). -/
abbrev isLater (i : grid0.Coords) : Prop :=
  (Scalar.cmpi .ne (Scalar.extui (Scalar.cmpi .sgt (BitVec.ofNat 32 (i 1).val) 0#32)) 0#32) = 1#1
/-- It holds exactly at the points whose step is not 0. -/
theorem isLater_iff : ∀ t : Fin cfg0.N, isLater (grid0.coords t) ↔ ¬ t.val % 8 = 0 :=
  (by decide +kernel : ∀ t : Fin grid0.N, isLater (grid0.coords t) ↔ ¬ t.val % 8 = 0)

/-- "This is the core's last step": the body's third conditional. -/
abbrev isLast (i : grid0.Coords) : Prop := k0_cond3 i = 1#1
/-- It holds exactly at the points whose step is 7. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

/-- The two input windows are never idle. -/
theorem in0_live : ∀ t : Fin cfg0.N, cfg0.idle 0 (grid0.coords t) = false := by decide +kernel
theorem in1_live : ∀ t : Fin cfg0.N, cfg0.idle 1 (grid0.coords t) = false := by decide +kernel
/-- Away from a core's last step the output window is idle (nothing is stored into it) … -/
theorem out_idle : ∀ t : Fin cfg0.N, ¬isLast (grid0.coords t) → cfg0.idle 2 (grid0.coords t) = true := by decide +kernel
/-- … and its block is not written back there. -/
theorem out_noFlush : ∀ t : Fin cfg0.N, ¬isLast (grid0.coords t) → (cfg0.win 2).flush t = false := by decide +kernel
/-- At a core's last step the output window is live. -/
theorem out_live : ∀ t : Fin cfg0.N, isLast (grid0.coords t) → cfg0.idle 2 (grid0.coords t) = false := by decide +kernel

/-! ## The buffers the body is called with -/

/-- Each window's current staging buffer at point `t`, as the pipeline passes it, and that it is a whole buffer. -/
abbrev stgP (t : Fin cfg0.N) : Memref sig .tc .vmem S4096x128 .f32 := win0_0.stage (cfg0.slots t 0)
abbrev stgP_whole (t : Fin cfg0.N) : (stgP t).IsWhole := hstage0_0 ((cfg0.slots t 0).cast nbuf0_0)
abbrev stgT (t : Fin cfg0.N) : Memref sig .tc .vmem S4096x128 .f32 := win0_1.stage (cfg0.slots t 1)
abbrev stgT_whole (t : Fin cfg0.N) : (stgT t).IsWhole := hstage0_1 ((cfg0.slots t 1).cast nbuf0_1)
abbrev stgO (t : Fin cfg0.N) : Memref sig .tc .vmem S1x3x8x128 .f32 := win0_2.stage (cfg0.slots t 2)
abbrev stgO_whole (t : Fin cfg0.N) : (stgO t).IsWhole := hstage0_2 ((cfg0.slots t 2).cast nbuf0_2)
/-- The accumulator: the kernel's one scratch buffer, whole, and the view its contents are stated through. -/
abbrev accM : Memref sig .tc .vmem S3x8x128 .f32 := Memref.whole cc0_scratch0
abbrev accV : View sig .tc .vmem S3x8x128 .f32 := accM.view
/-- One staging buffer of the output window, through which its contents are stated (any choice reads the same). -/
abbrev outV : View sig .tc .vmem S1x3x8x128 .f32 := (Memref.whole cc0_stg2_0 : Memref sig .tc .vmem S1x3x8x128 .f32).view

/-- What the region lends the body besides the windows: the accumulator at some contents and the generator register. -/
theorem regionInv_eq (c : Dev nD) :
    (Pipeline.ΦA spec0 c : sProp 𝕄)
      = iprop((∃ d, owns (c : Thread nD τ) accM fullShare d) ∗ (∃ r, prngReg c r)) := by
  unfold Pipeline.ΦA; rw [scopedRest0_eq]; simp only [accM, owns_whole]; try rfl

end Cert.Kernel.Body

end
-- ==== Proof.Kernel.RunFirst.lean ====
/-
  The body at a core's first step. Whatever the accumulator held, the body overwrites its three 8 x 128 slabs with this
  step's partial sums; the output buffer is left as it was found.
-/
import proofs.«151391_g2000509514383055_pallasbulk_1306_2_alg».proof.Proof.Kernel.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole buffers — the inputs at `x0`, `x1`, the output buffer at any `xo`, the accumulator at anything — the body at a
    point where only the first conditional holds runs to a continuation that gets the inputs and the output buffer back
    untouched and the accumulator with the pieces `LA` written: the pieces are found by running the body. -/
noncomputable def runFirst (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : isFirst i) (hl : ¬isLater i) (he : ¬isLast i)
    (x0 : Vec F S4096x128 .f32) (x1 : Vec F S4096x128 .f32) :
    { LA : List (View.Piece (Elt F) S3x8x128 .f32) //
      ∀ (xo : Vec F S1x3x8x128 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA)) -∗ K ⟨⟩))
          ⊢ wp frame (wpE (defs₀ (F := F)) Variants.none c none) E (cc0__nmse_tile_kernel i arg2 harg2 arg3 harg3 arg4 harg4 arg5 harg5) K } := by
  refine ⟨?_, fun xo E K => ?run⟩
  case run =>
    simp only [cc0__nmse_tile_kernel_eq_skeleton]; unfold cc0__nmse_tile_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hf | exact hl | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Body

end
-- ==== Proof.Kernel.RunMid.lean ====
/-
  The body at a step that is neither a core's first nor its last. Each 8 x 128 slab of the accumulator becomes what it
  held plus this step's partial sum; the output buffer is left as it was found.
-/
import proofs.«151391_g2000509514383055_pallasbulk_1306_2_alg».proof.Proof.Kernel.RunFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole buffers — the inputs at `x0`, `x1`, the output buffer at any `xo`, the accumulator at `xa` — the body at a
    point where only the second conditional holds runs to a continuation that gets the inputs and the output buffer back
    untouched and the accumulator with the pieces `LA` written. -/
noncomputable def runMid (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : ¬isLast i)
    (x0 : Vec F S4096x128 .f32) (x1 : Vec F S4096x128 .f32) (xa : Vec F S3x8x128 .f32) :
    { LA : List (View.Piece (Elt F) S3x8x128 .f32) //
      ∀ (xo : Vec F S1x3x8x128 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xa
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA)) -∗ K ⟨⟩))
          ⊢ wp frame (wpE (defs₀ (F := F)) Variants.none c none) E (cc0__nmse_tile_kernel i arg2 harg2 arg3 harg3 arg4 harg4 arg5 harg5) K } := by
  refine ⟨?_, fun xo E K => ?run⟩
  case run =>
    simp only [cc0__nmse_tile_kernel_eq_skeleton]; unfold cc0__nmse_tile_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hf | exact hl | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Body

end
-- ==== Proof.Kernel.RunLast.lean ====
/-
  The body at a core's last step. The accumulator is updated as at any later step, and then read back whole and stored
  over the output buffer, whatever that held.
-/
import proofs.«151391_g2000509514383055_pallasbulk_1306_2_alg».proof.Proof.Kernel.RunMid

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole buffers — the inputs at `x0`, `x1`, the output buffer at anything, the accumulator at `xa` — the body at a
    point where the second and third conditionals hold runs to a continuation that gets the inputs back untouched, the
    accumulator with the pieces `LA` written and the output buffer with the pieces `LO` written. -/
noncomputable def runLast (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : isLast i)
    (x0 : Vec F S4096x128 .f32) (x1 : Vec F S4096x128 .f32) (xa : Vec F S3x8x128 .f32) :
    Σ' (LO : List (View.Piece (Elt F) S1x3x8x128 .f32)), { LA : List (View.Piece (Elt F) S3x8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LA)) -∗ K ⟨⟩))
          ⊢ wp frame (wpE (defs₀ (F := F)) Variants.none c none) E (cc0__nmse_tile_kernel i arg2 harg2 arg3 harg3 arg4 harg4 arg5 harg5) K } := by
  refine ⟨?_, ?_, fun E K => ?run⟩
  case run =>
    simp only [cc0__nmse_tile_kernel_eq_skeleton]; unfold cc0__nmse_tile_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hf | exact hl | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Body

end
-- ==== Proof.Kernel.Frame.lean ====
/-
  The streaming kernel's region as a whole: what the accumulator and the output buffer hold after each grid point, the
  invariant that carries the accumulator from one point to the next, and the run of the whole program.

  After point t the accumulator holds: at a core's first step, this step's three partial sums; at any later step, what it
  held after point t - 1 plus this step's partial sums. The output buffer is written only at a core's last step, with the
  accumulator's contents after that step, and the pipeline writes the block back exactly then; at every other point the
  buffer is idle and what it holds is never consulted.
-/
import proofs.«151391_g2000509514383055_pallasbulk_1306_2_alg».proof.Proof.Kernel.RunLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from the pieces the runs found -/

/-- The first-step pieces (three slabs of 1 x 8 x 128) tile the accumulator. -/
theorem accCover_first (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : isFirst i) (hl : ¬isLater i) (he : ¬isLast i) (x0 : Vec F S4096x128 .f32) (x1 : Vec F S4096x128 .f32) (y : S3x8x128.Idx) :
    ∃ pc ∈ (runFirst c i arg2 harg2 arg3 harg3 arg4 harg4 arg5 harg5 hf hl he x0 x1).1, y ∈ pc.1.set :=
  View.cover_of_tiledL (runFirst c i arg2 harg2 arg3 harg3 arg4 harg4 arg5 harg5 hf hl he x0 x1).1 S1x8x128.size (by sl_kernel_rfl) y
/-- What a first step leaves in the accumulator. -/
def accFirst (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : isFirst i) (hl : ¬isLater i) (he : ¬isLast i) (x0 : Vec F S4096x128 .f32) (x1 : Vec F S4096x128 .f32) : Vec F S3x8x128 .f32 :=
  accV.read (Elt F) (accV.writes (Elt F) accV.junk (runFirst c i arg2 harg2 arg3 harg3 arg4 harg4 arg5 harg5 hf hl he x0 x1).1)

/-- The pieces of a middle step tile the accumulator. -/
theorem accCover_mid (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : ¬isLast i) (x0 : Vec F S4096x128 .f32) (x1 : Vec F S4096x128 .f32) (xa : Vec F S3x8x128 .f32) (y : S3x8x128.Idx) :
    ∃ pc ∈ (runMid c i arg2 harg2 arg3 harg3 arg4 harg4 arg5 harg5 hf hl he x0 x1 xa).1, y ∈ pc.1.set :=
  View.cover_of_tiledL (runMid c i arg2 harg2 arg3 harg3 arg4 harg4 arg5 harg5 hf hl he x0 x1 xa).1 S1x8x128.size (by sl_kernel_rfl) y
/-- What a middle step leaves in the accumulator, over what it found there. -/
def accMid (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : ¬isLast i) (x0 : Vec F S4096x128 .f32) (x1 : Vec F S4096x128 .f32) (xa : Vec F S3x8x128 .f32) : Vec F S3x8x128 .f32 :=
  accV.read (Elt F) (accV.writes (Elt F) accV.junk (runMid c i arg2 harg2 arg3 harg3 arg4 harg4 arg5 harg5 hf hl he x0 x1 xa).1)

/-- The accumulator pieces of a last step tile it. -/
theorem accCover_last (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : isLast i) (x0 : Vec F S4096x128 .f32) (x1 : Vec F S4096x128 .f32) (xa : Vec F S3x8x128 .f32) (y : S3x8x128.Idx) :
    ∃ pc ∈ (runLast c i arg2 harg2 arg3 harg3 arg4 harg4 arg5 harg5 hf hl he x0 x1 xa).2.1, y ∈ pc.1.set :=
  View.cover_of_tiledL (runLast c i arg2 harg2 arg3 harg3 arg4 harg4 arg5 harg5 hf hl he x0 x1 xa).2.1 S1x8x128.size (by sl_kernel_rfl) y
/-- What a last step leaves in the accumulator, over what it found there. -/
def accLast (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : isLast i) (x0 : Vec F S4096x128 .f32) (x1 : Vec F S4096x128 .f32) (xa : Vec F S3x8x128 .f32) : Vec F S3x8x128 .f32 :=
  accV.read (Elt F) (accV.writes (Elt F) accV.junk (runLast c i arg2 harg2 arg3 harg3 arg4 harg4 arg5 harg5 hf hl he x0 x1 xa).2.1)
/-- The one output piece of a last step is the whole block. -/
theorem outCover_last (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : isLast i) (x0 : Vec F S4096x128 .f32) (x1 : Vec F S4096x128 .f32) (xa : Vec F S3x8x128 .f32) (y : S1x3x8x128.Idx) :
    ∃ pc ∈ (runLast c i arg2 harg2 arg3 harg3 arg4 harg4 arg5 harg5 hf hl he x0 x1 xa).1, y ∈ pc.1.set :=
  View.cover_of_tiledL (runLast c i arg2 harg2 arg3 harg3 arg4 harg4 arg5 harg5 hf hl he x0 x1 xa).1 S1x3x8x128.size (by sl_kernel_rfl) y
/-- What a last step leaves in the output buffer. -/
def outLast (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : isLast i) (x0 : Vec F S4096x128 .f32) (x1 : Vec F S4096x128 .f32) (xa : Vec F S3x8x128 .f32) : Vec F S1x3x8x128 .f32 :=
  outV.read (Elt F) (outV.writes (Elt F) outV.junk (runLast c i arg2 harg2 arg3 harg3 arg4 harg4 arg5 harg5 hf hl he x0 x1 xa).1)

/-- The output buffer's nominal contents at a point where it is idle: nothing consults them. -/
def outIdle : Vec F S1x3x8x128 .f32 := outV.read (Elt F) outV.junk

/-! ## Point by point -/

/-- The pair (output buffer, accumulator) after the body at point `n`, by recursion on the point: the case the step
    coordinate selects, run on the point's input blocks and, past a core's first step, on the accumulator the point before left. -/
def stateAt (c : Dev nD) : (n : ℕ) → n < cfg0.N → Vec F S1x3x8x128 .f32 × Vec F S3x8x128 .f32
  | 0, hn => (outIdle, accFirst c (grid0.coords ⟨0, hn⟩) (stgP ⟨0, hn⟩) (stgP_whole ⟨0, hn⟩) (stgT ⟨0, hn⟩) (stgT_whole ⟨0, hn⟩) (stgO ⟨0, hn⟩) (stgO_whole ⟨0, hn⟩) accM (Memref.isWhole_whole _) ((isFirst_iff ⟨0, hn⟩).mpr (Nat.zero_mod _)) (fun h => (isLater_iff ⟨0, hn⟩).mp h (Nat.zero_mod _)) (fun h => (fun h => by (try dsimp only at h); omega) ((isLast_iff ⟨0, hn⟩).mp h)) (iblk m c 0 ⟨0, hn⟩) (iblk m c 1 ⟨0, hn⟩))
  | n + 1, hn =>
    if h0 : (n + 1) % 8 = 0 then
      (outIdle, accFirst c (grid0.coords ⟨n + 1, hn⟩) (stgP ⟨n + 1, hn⟩) (stgP_whole ⟨n + 1, hn⟩) (stgT ⟨n + 1, hn⟩) (stgT_whole ⟨n + 1, hn⟩) (stgO ⟨n + 1, hn⟩) (stgO_whole ⟨n + 1, hn⟩) accM (Memref.isWhole_whole _) ((isFirst_iff ⟨n + 1, hn⟩).mpr h0) (fun h => (isLater_iff ⟨n + 1, hn⟩).mp h h0) (fun h => (fun h => by (try dsimp only at h); omega) ((isLast_iff ⟨n + 1, hn⟩).mp h)) (iblk m c 0 ⟨n + 1, hn⟩) (iblk m c 1 ⟨n + 1, hn⟩))
    else
      if h7 : (n + 1) % 8 = 7 then
        (outLast c (grid0.coords ⟨n + 1, hn⟩) (stgP ⟨n + 1, hn⟩) (stgP_whole ⟨n + 1, hn⟩) (stgT ⟨n + 1, hn⟩) (stgT_whole ⟨n + 1, hn⟩) (stgO ⟨n + 1, hn⟩) (stgO_whole ⟨n + 1, hn⟩) accM (Memref.isWhole_whole _) (fun h => h0 ((isFirst_iff ⟨n + 1, hn⟩).mp h)) ((isLater_iff ⟨n + 1, hn⟩).mpr h0) ((isLast_iff ⟨n + 1, hn⟩).mpr h7) (iblk m c 0 ⟨n + 1, hn⟩) (iblk m c 1 ⟨n + 1, hn⟩) (stateAt c n (Nat.lt_of_succ_lt hn)).2,
         accLast c (grid0.coords ⟨n + 1, hn⟩) (stgP ⟨n + 1, hn⟩) (stgP_whole ⟨n + 1, hn⟩) (stgT ⟨n + 1, hn⟩) (stgT_whole ⟨n + 1, hn⟩) (stgO ⟨n + 1, hn⟩) (stgO_whole ⟨n + 1, hn⟩) accM (Memref.isWhole_whole _) (fun h => h0 ((isFirst_iff ⟨n + 1, hn⟩).mp h)) ((isLater_iff ⟨n + 1, hn⟩).mpr h0) ((isLast_iff ⟨n + 1, hn⟩).mpr h7) (iblk m c 0 ⟨n + 1, hn⟩) (iblk m c 1 ⟨n + 1, hn⟩) (stateAt c n (Nat.lt_of_succ_lt hn)).2)
      else
        (outIdle, accMid c (grid0.coords ⟨n + 1, hn⟩) (stgP ⟨n + 1, hn⟩) (stgP_whole ⟨n + 1, hn⟩) (stgT ⟨n + 1, hn⟩) (stgT_whole ⟨n + 1, hn⟩) (stgO ⟨n + 1, hn⟩) (stgO_whole ⟨n + 1, hn⟩) accM (Memref.isWhole_whole _) (fun h => h0 ((isFirst_iff ⟨n + 1, hn⟩).mp h)) ((isLater_iff ⟨n + 1, hn⟩).mpr h0) (fun h => h7 ((isLast_iff ⟨n + 1, hn⟩).mp h)) (iblk m c 0 ⟨n + 1, hn⟩) (iblk m c 1 ⟨n + 1, hn⟩) (stateAt c n (Nat.lt_of_succ_lt hn)).2)

/-- The point before `t`, as an index below the grid's size. -/
theorem pred_lt (t : Fin cfg0.N) : t.val - 1 < cfg0.N := Nat.lt_of_le_of_lt (Nat.sub_le _ _) t.isLt

/-- At a core's first step. -/
theorem stateAt_first (c : Dev nD) (t : Fin cfg0.N) (h0 : t.val % 8 = 0) (hf : isFirst (grid0.coords t)) (hl : ¬isLater (grid0.coords t)) (he : ¬isLast (grid0.coords t)) :
    stateAt m c t.val t.isLt = (outIdle, accFirst c (grid0.coords t) (stgP t) (stgP_whole t) (stgT t) (stgT_whole t) (stgO t) (stgO_whole t) accM (Memref.isWhole_whole _) hf hl he (iblk m c 0 t) (iblk m c 1 t)) := by
  obtain ⟨n, hn⟩ := t
  cases n with
  | zero => exact rfl
  | succ n => exact (dif_pos h0).trans rfl

/-- At a middle step: over what the point before left. -/
theorem stateAt_mid (c : Dev nD) (t : Fin cfg0.N) (h0 : ¬t.val % 8 = 0) (h7 : ¬t.val % 8 = 7) (hf : ¬isFirst (grid0.coords t)) (hl : isLater (grid0.coords t)) (he : ¬isLast (grid0.coords t)) :
    stateAt m c t.val t.isLt = (outIdle, accMid c (grid0.coords t) (stgP t) (stgP_whole t) (stgT t) (stgT_whole t) (stgO t) (stgO_whole t) accM (Memref.isWhole_whole _) hf hl he (iblk m c 0 t) (iblk m c 1 t) (stateAt m c (t.val - 1) (pred_lt t)).2) := by
  obtain ⟨n, hn⟩ := t
  cases n with
  | zero => exact (by exfalso; (try dsimp only at h0); exact absurd (Nat.zero_mod _) h0)
  | succ n => exact (dif_neg h0).trans ((dif_neg h7).trans rfl)

/-- At a core's last step: over what the point before left. -/
theorem stateAt_last (c : Dev nD) (t : Fin cfg0.N) (h0 : ¬t.val % 8 = 0) (h7 : t.val % 8 = 7) (hf : ¬isFirst (grid0.coords t)) (hl : isLater (grid0.coords t)) (he : isLast (grid0.coords t)) :
    stateAt m c t.val t.isLt = (outLast c (grid0.coords t) (stgP t) (stgP_whole t) (stgT t) (stgT_whole t) (stgO t) (stgO_whole t) accM (Memref.isWhole_whole _) hf hl he (iblk m c 0 t) (iblk m c 1 t) (stateAt m c (t.val - 1) (pred_lt t)).2,
      accLast c (grid0.coords t) (stgP t) (stgP_whole t) (stgT t) (stgT_whole t) (stgO t) (stgO_whole t) accM (Memref.isWhole_whole _) hf hl he (iblk m c 0 t) (iblk m c 1 t) (stateAt m c (t.val - 1) (pred_lt t)).2) := by
  obtain ⟨n, hn⟩ := t
  cases n with
  | zero => exact (by exfalso; (try dsimp only at h0); exact absurd (Nat.zero_mod _) h0)
  | succ n => exact (dif_neg h0).trans ((dif_pos h7).trans rfl)

/-! ## The invariant carried between points -/

/-- Before the first point: what the region lends (the accumulator at anything). Before any later point: the accumulator
    at what the point before left, and the generator register at some state. -/
def carried (c : Dev nD) : (n : ℕ) → n ≤ cfg0.N → sProp 𝕄
  | 0, _ => Pipeline.ΦA spec0 c
  | n + 1, hn => iprop(owns (c : Thread nD τ) accM fullShare ((stateAt m c n hn).2) ∗ (∃ r, prngReg c r))

theorem carried_zero (c : Dev nD) (n : ℕ) (h : n ≤ cfg0.N) (hz : n = 0) : carried m c n h = Pipeline.ΦA spec0 c := by
  subst hz; rfl
theorem carried_succ (c : Dev nD) (n : ℕ) (hn : n < cfg0.N) :
    carried m c (n + 1) hn = iprop(owns (c : Thread nD τ) accM fullShare ((stateAt m c n hn).2) ∗ (∃ r, prngReg c r)) := rfl
theorem carried_pos (c : Dev nD) (n : ℕ) (h : n ≤ cfg0.N) (hz : n ≠ 0) :
    carried m c n h = iprop(owns (c : Thread nD τ) accM fullShare ((stateAt m c (n - 1) (by omega)).2) ∗ (∃ r, prngReg c r)) := by
  cases n with
  | zero => exact absurd rfl hz
  | succ n => rfl

/-! ## The pipeline's proof data -/

/-- On core `c`: the arrays as the region finds them; after the body at point `t` each input buffer at its block and the
    output buffer at `stateAt`'s first component; the invariant `carried`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]
theorem carried_castSucc (c : Dev nD) (t : Fin cfg0.N) :
    (dats m 0 c).Φ t.castSucc = carried m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (stateAt m c t.val t.isLt).1 := by dsimp only [dats]
/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stgP t) fullShare ((dats m 0 c).before 0 t d))
    ∗ (∃ d, owns (c : Thread nD τ) (stgT t) fullShare ((dats m 0 c).before 1 t d))
    ∗ (∃ d, owns (c : Thread nD τ) (stgO t) fullShare ((dats m 0 c).before 2 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The step coordinate says which case the point is in; the invariant hands the body the accumulator
    (at anything before the very first point, otherwise at what the point before left) and takes it back at this point's
    contents, the case's pieces covering it; at a last step the output buffer comes back with its one covering piece, elsewhere
    untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = carried m c (t.val + 1) t.isLt from rfl, carried_succ]
  have hN : t.val < 16 := lt_of_lt_of_eq t.isLt (show cfg0.N = 16 from N_0)
  rw [show (dats m 0 c).leavesExact 0 t = owns (c : Thread nD τ) (stgP t) fullShare ((dats m 0 c).after 0 t) from by
    unfold Dat.leavesExact; rw [in0_live t], after_0]
  rw [show (dats m 0 c).leavesExact 1 t = owns (c : Thread nD τ) (stgT t) fullShare ((dats m 0 c).after 1 t) from by
    unfold Dat.leavesExact; rw [in1_live t], after_1]
  by_cases h0 : t.val % 8 = 0
  · have hf : isFirst (grid0.coords t) := (isFirst_iff t).mpr h0
    have hl : ¬isLater (grid0.coords t) := fun h => (isLater_iff t).mp h h0
    have he : ¬isLast (grid0.coords t) := fun h => by have := (isLast_iff t).mp h; omega
    rw [Dat.leavesExact_idle (dats m 0 c) 2 t (out_idle t he) (out_noFlush t he)]
    rw [stateAt_first m c t h0 hf hl he]
    unfold accFirst; (try dsimp only)
    by_cases hz : t.val = 0
    · rw [carried_castSucc m c t, carried_zero m c _ _ hz, regionInv_eq]
      iintro ⟨⟨HS, Hg⟩, Ho, ⟨%d0, H0⟩, ⟨%d1, H1⟩, ⟨%d2, H2⟩⟩
      iapply ((runFirst c (grid0.coords t) _ _ _ _ _ _ _ _ hf hl he (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es0, HS⟩⟩
      isplitl [HS Hg]
      · isplitl [HS]
        · unfold owns; iexists _; isplitr
          swap; · iexact HS
          ipureintro; exact View.read_writes_of_cover _ _ _ _ _ (accCover_first c _ _ _ _ _ _ _ _ _ _ _ _ _ _)
        iexact Hg
      isplitl [Ho]; · iexact Ho
      isplitl [H0]; · iexact H0
      isplitl [H1]; · iexact H1
      iexists _; iexact H2
    · rw [carried_castSucc m c t, carried_pos m c _ _ hz]
      iintro ⟨⟨HS, Hg⟩, Ho, ⟨%d0, H0⟩, ⟨%d1, H1⟩, ⟨%d2, H2⟩⟩
      iapply ((runFirst c (grid0.coords t) _ _ _ _ _ _ _ _ hf hl he (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es0, HS⟩⟩
      isplitl [HS Hg]
      · isplitl [HS]
        · unfold owns; iexists _; isplitr
          swap; · iexact HS
          ipureintro; exact View.read_writes_of_cover _ _ _ _ _ (accCover_first c _ _ _ _ _ _ _ _ _ _ _ _ _ _)
        iexact Hg
      isplitl [Ho]; · iexact Ho
      isplitl [H0]; · iexact H0
      isplitl [H1]; · iexact H1
      iexists _; iexact H2
  · have hf : ¬isFirst (grid0.coords t) := fun h => h0 ((isFirst_iff t).mp h)
    have hl : isLater (grid0.coords t) := (isLater_iff t).mpr h0
    have hz : t.val ≠ 0 := fun h => h0 (by rw [h])
    by_cases h7 : t.val % 8 = 7
    · have he : isLast (grid0.coords t) := (isLast_iff t).mpr h7
      rw [show (dats m 0 c).leavesExact 2 t = owns (c : Thread nD τ) (stgO t) fullShare ((dats m 0 c).after 2 t) from by
        unfold Dat.leavesExact; rw [out_live t he], after_2]
      rw [stateAt_last m c t h0 h7 hf hl he]
      unfold outLast accLast; (try dsimp only)
      rw [carried_castSucc m c t, carried_pos m c _ _ hz]
      iintro ⟨⟨HS, Hg⟩, Ho, ⟨%d0, H0⟩, ⟨%d1, H1⟩, ⟨%d2, H2⟩⟩
      iapply ((runLast c (grid0.coords t) _ _ _ _ _ _ _ _ hf hl he (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es0, HS⟩⟩
      isplitl [HS Hg]
      · isplitl [HS]
        · unfold owns; iexists _; isplitr
          swap; · iexact HS
          ipureintro; exact View.read_writes_of_cover _ _ _ _ _ (accCover_last c _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCover_last c _ _ _ _ _ _ _ _ _ _ _ _ _ _ _)
    · have he : ¬isLast (grid0.coords t) := fun h => h7 ((isLast_iff t).mp h)
      rw [Dat.leavesExact_idle (dats m 0 c) 2 t (out_idle t he) (out_noFlush t he)]
      rw [stateAt_mid m c t h0 h7 hf hl he]
      unfold accMid; (try dsimp only)
      rw [carried_castSucc m c t, carried_pos m c _ _ hz]
      iintro ⟨⟨HS, Hg⟩, Ho, ⟨%d0, H0⟩, ⟨%d1, H1⟩, ⟨%d2, H2⟩⟩
      iapply ((runMid c (grid0.coords t) _ _ _ _ _ _ _ _ hf hl he (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es0, HS⟩⟩
      isplitl [HS Hg]
      · isplitl [HS]
        · unfold owns; iexists _; isplitr
          swap; · iexact HS
          ipureintro; exact View.read_writes_of_cover _ _ _ _ _ (accCover_mid c _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the region lends is the invariant before the first point. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After any point the invariant gives back what the region lent: the accumulator's contents are forgotten. -/
theorem carried_out (c : Dev nD) (t : Fin (cfg0.N + 1)) (ht : t.val ≠ 0) : (dats m 0 c).Φ t ⊢ Pipeline.ΦA spec0 c := by
  rw [show (dats m 0 c).Φ t = carried m c t.val (Nat.le_of_lt_succ t.isLt) from rfl, carried_pos m c _ _ ht, regionInv_eq]
  iintro ⟨HS, Hg⟩
  isplitl [HS]
  · iexists _; iexact HS
  iexact Hg

theorem hout (c : Dev nD) : (dats m 0 c).Φ (Fin.last cfg0.N) ⊢ Pipeline.ΦA spec0 c :=
  carried_out m c _ (by rw [Fin.val_last]; have : cfg0.N = 16 := N_0; omega)

/-! ## The run and the frame -/

set_option backward.isDefEq.respectTransparency.types false in
/-- From any memory with zero counters every weakly fair execution of the program terminates, each array of the pipeline
    ending at what the library computes from the proof data and every other buffer as the host operations after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdeal.Shared.lean ====
/-
  The streaming kernel's body, case by case: what the three conditionals on the step coordinate decide, and where the
  output window is idle.

  The grid is 2 cores x 8 steps, sixteen points in row-major order, so point t is step t % 8 of core t / 8. The body
  first reduces its two 4096 x 128 input blocks to three 8 x 128 partial sums; at a core's FIRST step (t % 8 = 0) it stores
  them into the 3 x 8 x 128 accumulator, at every LATER step (t % 8 ≠ 0) it adds them to what the accumulator holds, and at the
  LAST step (t % 8 = 7) it also copies the accumulator into the output block, which is written back only then.
-/
import proofs.«151391_g2000509514383055_pallasbulk_1306_2_alg».proof.Proof.Gen.KernelIdeal.Frame
import proofs.«151391_g2000509514383055_pallasbulk_1306_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions, as the body computes them from the step coordinate -/

/-- "This is the core's first step": the body's first conditional. -/
abbrev isFirst (i : grid0.Coords) : Prop :=
  (Scalar.cmpi .ne (Scalar.extui (Scalar.cmpi .eq (BitVec.ofNat 32 (i 1).val) 0#32)) 0#32) = 1#1
/-- It holds exactly at the points whose step is 0. -/
theorem isFirst_iff : ∀ t : Fin cfg0.N, isFirst (grid0.coords t) ↔ t.val % 8 = 0 :=
  (by decide +kernel : ∀ t : Fin grid0.N, isFirst (grid0.coords t) ↔ t.val % 8 = 0)

/-- "This is a later step": the body's second conditional (a signed comparison with zero). -/
abbrev isLater (i : grid0.Coords) : Prop :=
  (Scalar.cmpi .ne (Scalar.extui (Scalar.cmpi .sgt (BitVec.ofNat 32 (i 1).val) 0#32)) 0#32) = 1#1
/-- It holds exactly at the points whose step is not 0. -/
theorem isLater_iff : ∀ t : Fin cfg0.N, isLater (grid0.coords t) ↔ ¬ t.val % 8 = 0 :=
  (by decide +kernel : ∀ t : Fin grid0.N, isLater (grid0.coords t) ↔ ¬ t.val % 8 = 0)

/-- "This is the core's last step": the body's third conditional. -/
abbrev isLast (i : grid0.Coords) : Prop := k0_cond3 i = 1#1
/-- It holds exactly at the points whose step is 7. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

/-- The two input windows are never idle. -/
theorem in0_live : ∀ t : Fin cfg0.N, cfg0.idle 0 (grid0.coords t) = false := by decide +kernel
theorem in1_live : ∀ t : Fin cfg0.N, cfg0.idle 1 (grid0.coords t) = false := by decide +kernel
/-- Away from a core's last step the output window is idle (nothing is stored into it) … -/
theorem out_idle : ∀ t : Fin cfg0.N, ¬isLast (grid0.coords t) → cfg0.idle 2 (grid0.coords t) = true := by decide +kernel
/-- … and its block is not written back there. -/
theorem out_noFlush : ∀ t : Fin cfg0.N, ¬isLast (grid0.coords t) → (cfg0.win 2).flush t = false := by decide +kernel
/-- At a core's last step the output window is live. -/
theorem out_live : ∀ t : Fin cfg0.N, isLast (grid0.coords t) → cfg0.idle 2 (grid0.coords t) = false := by decide +kernel

/-! ## The buffers the body is called with -/

/-- Each window's current staging buffer at point `t`, as the pipeline passes it, and that it is a whole buffer. -/
abbrev stgP (t : Fin cfg0.N) : Memref sig .tc .vmem S4096x128 .f32 := win0_0.stage (cfg0.slots t 0)
abbrev stgP_whole (t : Fin cfg0.N) : (stgP t).IsWhole := hstage0_0 ((cfg0.slots t 0).cast nbuf0_0)
abbrev stgT (t : Fin cfg0.N) : Memref sig .tc .vmem S4096x128 .f32 := win0_1.stage (cfg0.slots t 1)
abbrev stgT_whole (t : Fin cfg0.N) : (stgT t).IsWhole := hstage0_1 ((cfg0.slots t 1).cast nbuf0_1)
abbrev stgO (t : Fin cfg0.N) : Memref sig .tc .vmem S1x3x8x128 .f32 := win0_2.stage (cfg0.slots t 2)
abbrev stgO_whole (t : Fin cfg0.N) : (stgO t).IsWhole := hstage0_2 ((cfg0.slots t 2).cast nbuf0_2)
/-- The accumulator: the kernel's one scratch buffer, whole, and the view its contents are stated through. -/
abbrev accM : Memref sig .tc .vmem S3x8x128 .f32 := Memref.whole cc0_scratch0
abbrev accV : View sig .tc .vmem S3x8x128 .f32 := accM.view
/-- One staging buffer of the output window, through which its contents are stated (any choice reads the same). -/
abbrev outV : View sig .tc .vmem S1x3x8x128 .f32 := (Memref.whole cc0_stg2_0 : Memref sig .tc .vmem S1x3x8x128 .f32).view

/-- What the region lends the body besides the windows: the accumulator at some contents and the generator register. -/
theorem regionInv_eq (c : Dev nD) :
    (Pipeline.ΦA spec0 c : sProp 𝕄)
      = iprop((∃ d, owns (c : Thread nD τ) accM fullShare d) ∗ (∃ r, prngReg c r)) := by
  unfold Pipeline.ΦA; rw [scopedRest0_eq]; simp only [accM, owns_whole]; try rfl

end Cert.KernelIdeal.Body

end
-- ==== Proof.KernelIdeal.RunFirst.lean ====
/-
  The body at a core's first step. Whatever the accumulator held, the body overwrites its three 8 x 128 slabs with this
  step's partial sums; the output buffer is left as it was found.
-/
import proofs.«151391_g2000509514383055_pallasbulk_1306_2_alg».proof.Proof.KernelIdeal.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole buffers — the inputs at `x0`, `x1`, the output buffer at any `xo`, the accumulator at anything — the body at a
    point where only the first conditional holds runs to a continuation that gets the inputs and the output buffer back
    untouched and the accumulator with the pieces `LA` written: the pieces are found by running the body. -/
noncomputable def runFirst (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : isFirst i) (hl : ¬isLater i) (he : ¬isLast i)
    (x0 : Vec F S4096x128 .f32) (x1 : Vec F S4096x128 .f32) :
    { LA : List (View.Piece (Elt F) S3x8x128 .f32) //
      ∀ (xo : Vec F S1x3x8x128 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA)) -∗ K ⟨⟩))
          ⊢ wp frame (wpE (defs₀ (F := F)) Variants.none c none) E (cc0__nmse_tile_kernel i arg2 harg2 arg3 harg3 arg4 harg4 arg5 harg5) K } := by
  refine ⟨?_, fun xo E K => ?run⟩
  case run =>
    simp only [cc0__nmse_tile_kernel_eq_skeleton]; unfold cc0__nmse_tile_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hf | exact hl | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Body

end
-- ==== Proof.KernelIdeal.RunMid.lean ====
/-
  The body at a step that is neither a core's first nor its last. Each 8 x 128 slab of the accumulator becomes what it
  held plus this step's partial sum; the output buffer is left as it was found.
-/
import proofs.«151391_g2000509514383055_pallasbulk_1306_2_alg».proof.Proof.KernelIdeal.RunFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole buffers — the inputs at `x0`, `x1`, the output buffer at any `xo`, the accumulator at `xa` — the body at a
    point where only the second conditional holds runs to a continuation that gets the inputs and the output buffer back
    untouched and the accumulator with the pieces `LA` written. -/
noncomputable def runMid (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : ¬isLast i)
    (x0 : Vec F S4096x128 .f32) (x1 : Vec F S4096x128 .f32) (xa : Vec F S3x8x128 .f32) :
    { LA : List (View.Piece (Elt F) S3x8x128 .f32) //
      ∀ (xo : Vec F S1x3x8x128 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xa
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA)) -∗ K ⟨⟩))
          ⊢ wp frame (wpE (defs₀ (F := F)) Variants.none c none) E (cc0__nmse_tile_kernel i arg2 harg2 arg3 harg3 arg4 harg4 arg5 harg5) K } := by
  refine ⟨?_, fun xo E K => ?run⟩
  case run =>
    simp only [cc0__nmse_tile_kernel_eq_skeleton]; unfold cc0__nmse_tile_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hf | exact hl | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Body

end
-- ==== Proof.KernelIdeal.RunLast.lean ====
/-
  The body at a core's last step. The accumulator is updated as at any later step, and then read back whole and stored
  over the output buffer, whatever that held.
-/
import proofs.«151391_g2000509514383055_pallasbulk_1306_2_alg».proof.Proof.KernelIdeal.RunMid

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole buffers — the inputs at `x0`, `x1`, the output buffer at anything, the accumulator at `xa` — the body at a
    point where the second and third conditionals hold runs to a continuation that gets the inputs back untouched, the
    accumulator with the pieces `LA` written and the output buffer with the pieces `LO` written. -/
noncomputable def runLast (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : isLast i)
    (x0 : Vec F S4096x128 .f32) (x1 : Vec F S4096x128 .f32) (xa : Vec F S3x8x128 .f32) :
    Σ' (LO : List (View.Piece (Elt F) S1x3x8x128 .f32)), { LA : List (View.Piece (Elt F) S3x8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LA)) -∗ K ⟨⟩))
          ⊢ wp frame (wpE (defs₀ (F := F)) Variants.none c none) E (cc0__nmse_tile_kernel i arg2 harg2 arg3 harg3 arg4 harg4 arg5 harg5) K } := by
  refine ⟨?_, ?_, fun E K => ?run⟩
  case run =>
    simp only [cc0__nmse_tile_kernel_eq_skeleton]; unfold cc0__nmse_tile_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hf | exact hl | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Body

end
-- ==== Proof.KernelIdeal.Frame.lean ====
/-
  The streaming kernel's region as a whole: what the accumulator and the output buffer hold after each grid point, the
  invariant that carries the accumulator from one point to the next, and the run of the whole program.

  After point t the accumulator holds: at a core's first step, this step's three partial sums; at any later step, what it
  held after point t - 1 plus this step's partial sums. The output buffer is written only at a core's last step, with the
  accumulator's contents after that step, and the pipeline writes the block back exactly then; at every other point the
  buffer is idle and what it holds is never consulted.
-/
import proofs.«151391_g2000509514383055_pallasbulk_1306_2_alg».proof.Proof.KernelIdeal.RunLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from the pieces the runs found -/

/-- The first-step pieces (three slabs of 1 x 8 x 128) tile the accumulator. -/
theorem accCover_first (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : isFirst i) (hl : ¬isLater i) (he : ¬isLast i) (x0 : Vec F S4096x128 .f32) (x1 : Vec F S4096x128 .f32) (y : S3x8x128.Idx) :
    ∃ pc ∈ (runFirst c i arg2 harg2 arg3 harg3 arg4 harg4 arg5 harg5 hf hl he x0 x1).1, y ∈ pc.1.set :=
  View.cover_of_tiledL (runFirst c i arg2 harg2 arg3 harg3 arg4 harg4 arg5 harg5 hf hl he x0 x1).1 S1x8x128.size (by sl_kernel_rfl) y
/-- What a first step leaves in the accumulator. -/
def accFirst (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : isFirst i) (hl : ¬isLater i) (he : ¬isLast i) (x0 : Vec F S4096x128 .f32) (x1 : Vec F S4096x128 .f32) : Vec F S3x8x128 .f32 :=
  accV.read (Elt F) (accV.writes (Elt F) accV.junk (runFirst c i arg2 harg2 arg3 harg3 arg4 harg4 arg5 harg5 hf hl he x0 x1).1)

/-- The pieces of a middle step tile the accumulator. -/
theorem accCover_mid (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : ¬isLast i) (x0 : Vec F S4096x128 .f32) (x1 : Vec F S4096x128 .f32) (xa : Vec F S3x8x128 .f32) (y : S3x8x128.Idx) :
    ∃ pc ∈ (runMid c i arg2 harg2 arg3 harg3 arg4 harg4 arg5 harg5 hf hl he x0 x1 xa).1, y ∈ pc.1.set :=
  View.cover_of_tiledL (runMid c i arg2 harg2 arg3 harg3 arg4 harg4 arg5 harg5 hf hl he x0 x1 xa).1 S1x8x128.size (by sl_kernel_rfl) y
/-- What a middle step leaves in the accumulator, over what it found there. -/
def accMid (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : ¬isLast i) (x0 : Vec F S4096x128 .f32) (x1 : Vec F S4096x128 .f32) (xa : Vec F S3x8x128 .f32) : Vec F S3x8x128 .f32 :=
  accV.read (Elt F) (accV.writes (Elt F) accV.junk (runMid c i arg2 harg2 arg3 harg3 arg4 harg4 arg5 harg5 hf hl he x0 x1 xa).1)

/-- The accumulator pieces of a last step tile it. -/
theorem accCover_last (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : isLast i) (x0 : Vec F S4096x128 .f32) (x1 : Vec F S4096x128 .f32) (xa : Vec F S3x8x128 .f32) (y : S3x8x128.Idx) :
    ∃ pc ∈ (runLast c i arg2 harg2 arg3 harg3 arg4 harg4 arg5 harg5 hf hl he x0 x1 xa).2.1, y ∈ pc.1.set :=
  View.cover_of_tiledL (runLast c i arg2 harg2 arg3 harg3 arg4 harg4 arg5 harg5 hf hl he x0 x1 xa).2.1 S1x8x128.size (by sl_kernel_rfl) y
/-- What a last step leaves in the accumulator, over what it found there. -/
def accLast (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : isLast i) (x0 : Vec F S4096x128 .f32) (x1 : Vec F S4096x128 .f32) (xa : Vec F S3x8x128 .f32) : Vec F S3x8x128 .f32 :=
  accV.read (Elt F) (accV.writes (Elt F) accV.junk (runLast c i arg2 harg2 arg3 harg3 arg4 harg4 arg5 harg5 hf hl he x0 x1 xa).2.1)
/-- The one output piece of a last step is the whole block. -/
theorem outCover_last (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : isLast i) (x0 : Vec F S4096x128 .f32) (x1 : Vec F S4096x128 .f32) (xa : Vec F S3x8x128 .f32) (y : S1x3x8x128.Idx) :
    ∃ pc ∈ (runLast c i arg2 harg2 arg3 harg3 arg4 harg4 arg5 harg5 hf hl he x0 x1 xa).1, y ∈ pc.1.set :=
  View.cover_of_tiledL (runLast c i arg2 harg2 arg3 harg3 arg4 harg4 arg5 harg5 hf hl he x0 x1 xa).1 S1x3x8x128.size (by sl_kernel_rfl) y
/-- What a last step leaves in the output buffer. -/
def outLast (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬isFirst i) (hl : isLater i) (he : isLast i) (x0 : Vec F S4096x128 .f32) (x1 : Vec F S4096x128 .f32) (xa : Vec F S3x8x128 .f32) : Vec F S1x3x8x128 .f32 :=
  outV.read (Elt F) (outV.writes (Elt F) outV.junk (runLast c i arg2 harg2 arg3 harg3 arg4 harg4 arg5 harg5 hf hl he x0 x1 xa).1)

/-- The output buffer's nominal contents at a point where it is idle: nothing consults them. -/
def outIdle : Vec F S1x3x8x128 .f32 := outV.read (Elt F) outV.junk

/-! ## Point by point -/

/-- The pair (output buffer, accumulator) after the body at point `n`, by recursion on the point: the case the step
    coordinate selects, run on the point's input blocks and, past a core's first step, on the accumulator the point before left. -/
def stateAt (c : Dev nD) : (n : ℕ) → n < cfg0.N → Vec F S1x3x8x128 .f32 × Vec F S3x8x128 .f32
  | 0, hn => (outIdle, accFirst c (grid0.coords ⟨0, hn⟩) (stgP ⟨0, hn⟩) (stgP_whole ⟨0, hn⟩) (stgT ⟨0, hn⟩) (stgT_whole ⟨0, hn⟩) (stgO ⟨0, hn⟩) (stgO_whole ⟨0, hn⟩) accM (Memref.isWhole_whole _) ((isFirst_iff ⟨0, hn⟩).mpr (Nat.zero_mod _)) (fun h => (isLater_iff ⟨0, hn⟩).mp h (Nat.zero_mod _)) (fun h => (fun h => by (try dsimp only at h); omega) ((isLast_iff ⟨0, hn⟩).mp h)) (iblk m c 0 ⟨0, hn⟩) (iblk m c 1 ⟨0, hn⟩))
  | n + 1, hn =>
    if h0 : (n + 1) % 8 = 0 then
      (outIdle, accFirst c (grid0.coords ⟨n + 1, hn⟩) (stgP ⟨n + 1, hn⟩) (stgP_whole ⟨n + 1, hn⟩) (stgT ⟨n + 1, hn⟩) (stgT_whole ⟨n + 1, hn⟩) (stgO ⟨n + 1, hn⟩) (stgO_whole ⟨n + 1, hn⟩) accM (Memref.isWhole_whole _) ((isFirst_iff ⟨n + 1, hn⟩).mpr h0) (fun h => (isLater_iff ⟨n + 1, hn⟩).mp h h0) (fun h => (fun h => by (try dsimp only at h); omega) ((isLast_iff ⟨n + 1, hn⟩).mp h)) (iblk m c 0 ⟨n + 1, hn⟩) (iblk m c 1 ⟨n + 1, hn⟩))
    else
      if h7 : (n + 1) % 8 = 7 then
        (outLast c (grid0.coords ⟨n + 1, hn⟩) (stgP ⟨n + 1, hn⟩) (stgP_whole ⟨n + 1, hn⟩) (stgT ⟨n + 1, hn⟩) (stgT_whole ⟨n + 1, hn⟩) (stgO ⟨n + 1, hn⟩) (stgO_whole ⟨n + 1, hn⟩) accM (Memref.isWhole_whole _) (fun h => h0 ((isFirst_iff ⟨n + 1, hn⟩).mp h)) ((isLater_iff ⟨n + 1, hn⟩).mpr h0) ((isLast_iff ⟨n + 1, hn⟩).mpr h7) (iblk m c 0 ⟨n + 1, hn⟩) (iblk m c 1 ⟨n + 1, hn⟩) (stateAt c n (Nat.lt_of_succ_lt hn)).2,
         accLast c (grid0.coords ⟨n + 1, hn⟩) (stgP ⟨n + 1, hn⟩) (stgP_whole ⟨n + 1, hn⟩) (stgT ⟨n + 1, hn⟩) (stgT_whole ⟨n + 1, hn⟩) (stgO ⟨n + 1, hn⟩) (stgO_whole ⟨n + 1, hn⟩) accM (Memref.isWhole_whole _) (fun h => h0 ((isFirst_iff ⟨n + 1, hn⟩).mp h)) ((isLater_iff ⟨n + 1, hn⟩).mpr h0) ((isLast_iff ⟨n + 1, hn⟩).mpr h7) (iblk m c 0 ⟨n + 1, hn⟩) (iblk m c 1 ⟨n + 1, hn⟩) (stateAt c n (Nat.lt_of_succ_lt hn)).2)
      else
        (outIdle, accMid c (grid0.coords ⟨n + 1, hn⟩) (stgP ⟨n + 1, hn⟩) (stgP_whole ⟨n + 1, hn⟩) (stgT ⟨n + 1, hn⟩) (stgT_whole ⟨n + 1, hn⟩) (stgO ⟨n + 1, hn⟩) (stgO_whole ⟨n + 1, hn⟩) accM (Memref.isWhole_whole _) (fun h => h0 ((isFirst_iff ⟨n + 1, hn⟩).mp h)) ((isLater_iff ⟨n + 1, hn⟩).mpr h0) (fun h => h7 ((isLast_iff ⟨n + 1, hn⟩).mp h)) (iblk m c 0 ⟨n + 1, hn⟩) (iblk m c 1 ⟨n + 1, hn⟩) (stateAt c n (Nat.lt_of_succ_lt hn)).2)

/-- The point before `t`, as an index below the grid's size. -/
theorem pred_lt (t : Fin cfg0.N) : t.val - 1 < cfg0.N := Nat.lt_of_le_of_lt (Nat.sub_le _ _) t.isLt

/-- At a core's first step. -/
theorem stateAt_first (c : Dev nD) (t : Fin cfg0.N) (h0 : t.val % 8 = 0) (hf : isFirst (grid0.coords t)) (hl : ¬isLater (grid0.coords t)) (he : ¬isLast (grid0.coords t)) :
    stateAt m c t.val t.isLt = (outIdle, accFirst c (grid0.coords t) (stgP t) (stgP_whole t) (stgT t) (stgT_whole t) (stgO t) (stgO_whole t) accM (Memref.isWhole_whole _) hf hl he (iblk m c 0 t) (iblk m c 1 t)) := by
  obtain ⟨n, hn⟩ := t
  cases n with
  | zero => exact rfl
  | succ n => exact (dif_pos h0).trans rfl

/-- At a middle step: over what the point before left. -/
theorem stateAt_mid (c : Dev nD) (t : Fin cfg0.N) (h0 : ¬t.val % 8 = 0) (h7 : ¬t.val % 8 = 7) (hf : ¬isFirst (grid0.coords t)) (hl : isLater (grid0.coords t)) (he : ¬isLast (grid0.coords t)) :
    stateAt m c t.val t.isLt = (outIdle, accMid c (grid0.coords t) (stgP t) (stgP_whole t) (stgT t) (stgT_whole t) (stgO t) (stgO_whole t) accM (Memref.isWhole_whole _) hf hl he (iblk m c 0 t) (iblk m c 1 t) (stateAt m c (t.val - 1) (pred_lt t)).2) := by
  obtain ⟨n, hn⟩ := t
  cases n with
  | zero => exact (by exfalso; (try dsimp only at h0); exact absurd (Nat.zero_mod _) h0)
  | succ n => exact (dif_neg h0).trans ((dif_neg h7).trans rfl)

/-- At a core's last step: over what the point before left. -/
theorem stateAt_last (c : Dev nD) (t : Fin cfg0.N) (h0 : ¬t.val % 8 = 0) (h7 : t.val % 8 = 7) (hf : ¬isFirst (grid0.coords t)) (hl : isLater (grid0.coords t)) (he : isLast (grid0.coords t)) :
    stateAt m c t.val t.isLt = (outLast c (grid0.coords t) (stgP t) (stgP_whole t) (stgT t) (stgT_whole t) (stgO t) (stgO_whole t) accM (Memref.isWhole_whole _) hf hl he (iblk m c 0 t) (iblk m c 1 t) (stateAt m c (t.val - 1) (pred_lt t)).2,
      accLast c (grid0.coords t) (stgP t) (stgP_whole t) (stgT t) (stgT_whole t) (stgO t) (stgO_whole t) accM (Memref.isWhole_whole _) hf hl he (iblk m c 0 t) (iblk m c 1 t) (stateAt m c (t.val - 1) (pred_lt t)).2) := by
  obtain ⟨n, hn⟩ := t
  cases n with
  | zero => exact (by exfalso; (try dsimp only at h0); exact absurd (Nat.zero_mod _) h0)
  | succ n => exact (dif_neg h0).trans ((dif_pos h7).trans rfl)

/-! ## The invariant carried between points -/

/-- Before the first point: what the region lends (the accumulator at anything). Before any later point: the accumulator
    at what the point before left, and the generator register at some state. -/
def carried (c : Dev nD) : (n : ℕ) → n ≤ cfg0.N → sProp 𝕄
  | 0, _ => Pipeline.ΦA spec0 c
  | n + 1, hn => iprop(owns (c : Thread nD τ) accM fullShare ((stateAt m c n hn).2) ∗ (∃ r, prngReg c r))

theorem carried_zero (c : Dev nD) (n : ℕ) (h : n ≤ cfg0.N) (hz : n = 0) : carried m c n h = Pipeline.ΦA spec0 c := by
  subst hz; rfl
theorem carried_succ (c : Dev nD) (n : ℕ) (hn : n < cfg0.N) :
    carried m c (n + 1) hn = iprop(owns (c : Thread nD τ) accM fullShare ((stateAt m c n hn).2) ∗ (∃ r, prngReg c r)) := rfl
theorem carried_pos (c : Dev nD) (n : ℕ) (h : n ≤ cfg0.N) (hz : n ≠ 0) :
    carried m c n h = iprop(owns (c : Thread nD τ) accM fullShare ((stateAt m c (n - 1) (by omega)).2) ∗ (∃ r, prngReg c r)) := by
  cases n with
  | zero => exact absurd rfl hz
  | succ n => rfl

/-! ## The pipeline's proof data -/

/-- On core `c`: the arrays as the region finds them; after the body at point `t` each input buffer at its block and the
    output buffer at `stateAt`'s first component; the invariant `carried`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]
theorem carried_castSucc (c : Dev nD) (t : Fin cfg0.N) :
    (dats m 0 c).Φ t.castSucc = carried m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (stateAt m c t.val t.isLt).1 := by dsimp only [dats]
/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stgP t) fullShare ((dats m 0 c).before 0 t d))
    ∗ (∃ d, owns (c : Thread nD τ) (stgT t) fullShare ((dats m 0 c).before 1 t d))
    ∗ (∃ d, owns (c : Thread nD τ) (stgO t) fullShare ((dats m 0 c).before 2 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The step coordinate says which case the point is in; the invariant hands the body the accumulator
    (at anything before the very first point, otherwise at what the point before left) and takes it back at this point's
    contents, the case's pieces covering it; at a last step the output buffer comes back with its one covering piece, elsewhere
    untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = carried m c (t.val + 1) t.isLt from rfl, carried_succ]
  have hN : t.val < 16 := lt_of_lt_of_eq t.isLt (show cfg0.N = 16 from N_0)
  rw [show (dats m 0 c).leavesExact 0 t = owns (c : Thread nD τ) (stgP t) fullShare ((dats m 0 c).after 0 t) from by
    unfold Dat.leavesExact; rw [in0_live t], after_0]
  rw [show (dats m 0 c).leavesExact 1 t = owns (c : Thread nD τ) (stgT t) fullShare ((dats m 0 c).after 1 t) from by
    unfold Dat.leavesExact; rw [in1_live t], after_1]
  by_cases h0 : t.val % 8 = 0
  · have hf : isFirst (grid0.coords t) := (isFirst_iff t).mpr h0
    have hl : ¬isLater (grid0.coords t) := fun h => (isLater_iff t).mp h h0
    have he : ¬isLast (grid0.coords t) := fun h => by have := (isLast_iff t).mp h; omega
    rw [Dat.leavesExact_idle (dats m 0 c) 2 t (out_idle t he) (out_noFlush t he)]
    rw [stateAt_first m c t h0 hf hl he]
    unfold accFirst; (try dsimp only)
    by_cases hz : t.val = 0
    · rw [carried_castSucc m c t, carried_zero m c _ _ hz, regionInv_eq]
      iintro ⟨⟨HS, Hg⟩, Ho, ⟨%d0, H0⟩, ⟨%d1, H1⟩, ⟨%d2, H2⟩⟩
      iapply ((runFirst c (grid0.coords t) _ _ _ _ _ _ _ _ hf hl he (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es0, HS⟩⟩
      isplitl [HS Hg]
      · isplitl [HS]
        · unfold owns; iexists _; isplitr
          swap; · iexact HS
          ipureintro; exact View.read_writes_of_cover _ _ _ _ _ (accCover_first c _ _ _ _ _ _ _ _ _ _ _ _ _ _)
        iexact Hg
      isplitl [Ho]; · iexact Ho
      isplitl [H0]; · iexact H0
      isplitl [H1]; · iexact H1
      iexists _; iexact H2
    · rw [carried_castSucc m c t, carried_pos m c _ _ hz]
      iintro ⟨⟨HS, Hg⟩, Ho, ⟨%d0, H0⟩, ⟨%d1, H1⟩, ⟨%d2, H2⟩⟩
      iapply ((runFirst c (grid0.coords t) _ _ _ _ _ _ _ _ hf hl he (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es0, HS⟩⟩
      isplitl [HS Hg]
      · isplitl [HS]
        · unfold owns; iexists _; isplitr
          swap; · iexact HS
          ipureintro; exact View.read_writes_of_cover _ _ _ _ _ (accCover_first c _ _ _ _ _ _ _ _ _ _ _ _ _ _)
        iexact Hg
      isplitl [Ho]; · iexact Ho
      isplitl [H0]; · iexact H0
      isplitl [H1]; · iexact H1
      iexists _; iexact H2
  · have hf : ¬isFirst (grid0.coords t) := fun h => h0 ((isFirst_iff t).mp h)
    have hl : isLater (grid0.coords t) := (isLater_iff t).mpr h0
    have hz : t.val ≠ 0 := fun h => h0 (by rw [h])
    by_cases h7 : t.val % 8 = 7
    · have he : isLast (grid0.coords t) := (isLast_iff t).mpr h7
      rw [show (dats m 0 c).leavesExact 2 t = owns (c : Thread nD τ) (stgO t) fullShare ((dats m 0 c).after 2 t) from by
        unfold Dat.leavesExact; rw [out_live t he], after_2]
      rw [stateAt_last m c t h0 h7 hf hl he]
      unfold outLast accLast; (try dsimp only)
      rw [carried_castSucc m c t, carried_pos m c _ _ hz]
      iintro ⟨⟨HS, Hg⟩, Ho, ⟨%d0, H0⟩, ⟨%d1, H1⟩, ⟨%d2, H2⟩⟩
      iapply ((runLast c (grid0.coords t) _ _ _ _ _ _ _ _ hf hl he (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es0, HS⟩⟩
      isplitl [HS Hg]
      · isplitl [HS]
        · unfold owns; iexists _; isplitr
          swap; · iexact HS
          ipureintro; exact View.read_writes_of_cover _ _ _ _ _ (accCover_last c _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCover_last c _ _ _ _ _ _ _ _ _ _ _ _ _ _ _)
    · have he : ¬isLast (grid0.coords t) := fun h => h7 ((isLast_iff t).mp h)
      rw [Dat.leavesExact_idle (dats m 0 c) 2 t (out_idle t he) (out_noFlush t he)]
      rw [stateAt_mid m c t h0 h7 hf hl he]
      unfold accMid; (try dsimp only)
      rw [carried_castSucc m c t, carried_pos m c _ _ hz]
      iintro ⟨⟨HS, Hg⟩, Ho, ⟨%d0, H0⟩, ⟨%d1, H1⟩, ⟨%d2, H2⟩⟩
      iapply ((runMid c (grid0.coords t) _ _ _ _ _ _ _ _ hf hl he (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es0, HS⟩⟩
      isplitl [HS Hg]
      · isplitl [HS]
        · unfold owns; iexists _; isplitr
          swap; · iexact HS
          ipureintro; exact View.read_writes_of_cover _ _ _ _ _ (accCover_mid c _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the region lends is the invariant before the first point. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After any point the invariant gives back what the region lent: the accumulator's contents are forgotten. -/
theorem carried_out (c : Dev nD) (t : Fin (cfg0.N + 1)) (ht : t.val ≠ 0) : (dats m 0 c).Φ t ⊢ Pipeline.ΦA spec0 c := by
  rw [show (dats m 0 c).Φ t = carried m c t.val (Nat.le_of_lt_succ t.isLt) from rfl, carried_pos m c _ _ ht, regionInv_eq]
  iintro ⟨HS, Hg⟩
  isplitl [HS]
  · iexists _; iexact HS
  iexact Hg

theorem hout (c : Dev nD) : (dats m 0 c).Φ (Fin.last cfg0.N) ⊢ Pipeline.ΦA spec0 c :=
  carried_out m c _ (by rw [Fin.val_last]; have : cfg0.N = 16 := N_0; omega)

/-! ## The run and the frame -/

set_option backward.isDefEq.respectTransparency.types false in
/-- From any memory with zero counters every weakly fair execution of the program terminates, each array of the pipeline
    ending at what the library computes from the proof data and every other buffer as the host operations after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The mathematics both programs compute, stated once over literal shapes and importing neither program.

  Both take two f32[2048, 4096] arrays p and t, lay each out as 65536 rows of 128 lanes (row-major, so nothing moves),
  and form three totals over all 65536 x 128 entries: of (p - t)^2, of t, and of t^2. From the three totals S0, S1, S2 and the
  constant 2^-23 (the reciprocal of the entry count, an exact binary fraction) the result is
  (S0 * 2^-23) / (S2 * 2^-23 - (S1 * 2^-23)^2): the mean squared error over the variance of t.
  The programs differ only in how they bracket and order the three totals, which over the extended reals
  (a commutative monoid under addition) changes nothing.
-/
import Idealize.ShloMosaic.PureOps.Ideal
import Idealize.ShloMosaic.Lib.ValueIdx

noncomputable section

open scoped BigOperators

namespace Nmse

open Idealize.ShloMosaic Idealize.ShloMosaic.ValueIdx

/-- The arguments' shape, the flat stream, and the stream as rows of 128 lanes. -/
abbrev SIn : Shape := ⟨2, ![2048, 4096]⟩
abbrev SFlat : Shape := ⟨1, ![8388608]⟩
abbrev SRows : Shape := ⟨2, ![65536, 128]⟩
abbrev S3 : Shape := ⟨1, ![3]⟩
abbrev S1 : Shape := ⟨1, ![1]⟩
abbrev S0 : Shape := ⟨0, ![]⟩

/-- An argument array re-laid as 65536 rows of 128 lanes: flattened, then cut into rows. -/
def rows (h1 : SIn.ShapeCasts SFlat) (h2 : SFlat.ShapeCasts SRows) (x : FVec Ideal SIn .f32) : FVec Ideal SRows .f32 :=
  shapeCast SRows (shapeCast SFlat x h1) h2

/-- The three summands at row `R`, lane `l`: the squared difference, the target, the target's square. -/
def term (P T : FVec Ideal SRows .f32) (k : ℕ) (R : Fin 65536) (l : Fin 128) : EReal :=
  match k with
  | 0 => (P (ix2 R l) - T (ix2 R l)) * (P (ix2 R l) - T (ix2 R l))
  | 1 => T (ix2 R l)
  | _ => T (ix2 R l) * T (ix2 R l)

/-- The total of a function of (row, lane) over all 65536 x 128 entries. -/
def total (h : Fin 65536 → Fin 128 → EReal) : EReal := ∑ R, ∑ l, h R l

/-- The three totals as a vector of three. -/
def sums (P T : FVec Ideal SRows .f32) : FVec Ideal S3 .f32 := fun j => total (term P T (j 0).val)

/-- The scalar arithmetic after the totals: each total times 2^-23, then mse / (E[t^2] - E[t]^2), as the host
    operations both programs end with (a slice and a reshape per component, three products with the constant, a square,
    a difference, a quotient). -/
def tail (hs0 : S3.Slices ![0] S1) (hs1 : S3.Slices ![1] S1) (hs2 : S3.Slices ![2] S1) (hc : S1.ShapeCasts S0)
    (S : FVec Ideal S3 .f32) : FVec Ideal S0 .f32 :=
  Host.divf
    (mulf (shapeCast S0 (extractStridedSlice S1 ![0] S hs0) hc) (constant (F := Ideal) S0 .f32 0x34000000#32))
    (subf
      (mulf (shapeCast S0 (extractStridedSlice S1 ![2] S hs2) hc) (constant (F := Ideal) S0 .f32 0x34000000#32))
      (mulf
        (mulf (shapeCast S0 (extractStridedSlice S1 ![1] S hs1) hc) (constant (F := Ideal) S0 .f32 0x34000000#32))
        (mulf (shapeCast S0 (extractStridedSlice S1 ![1] S hs1) hc) (constant (F := Ideal) S0 .f32 0x34000000#32))))

/-- The result as one function of the two argument arrays. -/
def result (h1 : SIn.ShapeCasts SFlat) (h2 : SFlat.ShapeCasts SRows)
    (hs0 : S3.Slices ![0] S1) (hs1 : S3.Slices ![1] S1) (hs2 : S3.Slices ![2] S1) (hc : S1.ShapeCasts S0)
    (p t : FVec Ideal SIn .f32) : FVec Ideal S0 .f32 :=
  tail hs0 hs1 hs2 hc (sums (rows h1 h2 p) (rows h1 h2 t))

/-- The row the kernel's grid point (core `c`, step `i`) reads at position (group `g`, sublane `s`) of its 4096-row block. -/
def rowK (c : Fin 2) (i : Fin 8) (g : Fin 512) (s : Fin 8) : Fin 65536 :=
  ⟨(c.val * 8 + i.val) * 4096 + (g.val * 8 + s.val), by omega⟩

/-- The row the reference's grid point (core `c`, step `i`) reads at row `r` of its 2048-row block. -/
def rowR (c : Fin 2) (i : Fin 16) (r : Fin 2048) : Fin 65536 :=
  ⟨(c.val * 16 + i.val) * 2048 + r.val, by omega⟩

end Nmse

end
-- ==== Proof.KernelPieces.lean ====
/-
  The streaming kernel's body, case by case, at the ideal instance and at an index.

  A 4096 x 128 block viewed as 512 groups of 8 sublanes and summed over the groups gives, at (sublane s, lane l), the sum over
  the 512 rows g * 8 + s. The body forms three such partial sums of a block pair (p, t): of (p - t)^2, of t, of t^2. The
  3 x 8 x 128 accumulator is written one 1 x 8 x 128 slab at a time: a core's first step stores partial sum k in slab k, a later
  step stores slab k plus partial sum k, and the last step then copies the accumulator into the output buffer under a leading
  unit axis. So after a first step entry (k, s, l) is partial sum k at (s, l); after a later step it is what the accumulator
  held there plus that partial sum; and the output buffer's entry (0, k, s, l) is the accumulator's (k, s, l).
-/
import proofs.«151391_g2000509514383055_pallasbulk_1306_2_alg».proof.Proof.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KernelValue

open Idealize.ShloMosaic Idealize.ShloMosaic.TcCoe Idealize.ShloMosaic.ValueIdx Idealize.SL.Sem
open Cert.KernelIdeal Cert.KernelIdeal.Gen

/-! ## The partial sums of one block -/

theorem hz2 : (![0, 0] : Fin 2 → Nat) = fun _ => 0 := funext fun a => by fin_cases a <;> rfl

/-- Row `g * 8 + s` of a 4096-row block: sublane `s` of row group `g`. -/
def brow (g : Fin 512) (s : Fin 8) : Fin 4096 := ⟨g.val * 8 + s.val, by omega⟩

/-- A 4096 x 128 block viewed as 512 groups of 8 sublanes reads (g, s, l) at row g * 8 + s, lane l: the same row-major position. -/
theorem reshape512_apply (v : FVec Ideal S4096x128 .f32) (g : Fin 512) (s : Fin 8) (l : Fin 128) :
    shapeCast S512x8x128 v shapeCasts_S4096x128_S512x8x128 (reduces_S512x8x128_S8x128.lift (ix2 s l) g)
      = v (ix2 (brow g s) l) := by
  refine shapeCast_apply v _ _ (ix2 (brow g s) l) ?_
  rw [Shape.rowMajor_val_two, Shape.rowMajor_val_three]
  rfl

/-- The first partial sum at (s, l): the squared differences of the 512 rows g * 8 + s. -/
theorem pay2_apply (x0 x1 : Vec Ideal S4096x128 .f32) (s : Fin 8) (l : Fin 128) :
    k0_pay2 (F := Ideal) x0 x1 (ix2 s l)
      = ∑ g : Fin 512, (x0 (ix2 (brow g s) l) - x1 (ix2 (brow g s) l)) * (x0 (ix2 (brow g s) l) - x1 (ix2 (brow g s) l)) := by
  unfold k0_pay2 k0_pay1
  refine (Ideal.multiReduction_add_single _ _ reduces_S512x8x128_S8x128 _ _ (ix2 s l)).trans ?_
  refine Finset.sum_congr rfl fun g _ => ?_
  refine (reshape512_apply _ g s l).trans ?_
  simp only [shapeCast_self]
  rfl

/-- The second partial sum at (s, l): the targets of those rows. -/
theorem pay3_apply (x1 : Vec Ideal S4096x128 .f32) (s : Fin 8) (l : Fin 128) :
    k0_pay3 (F := Ideal) x1 (ix2 s l) = ∑ g : Fin 512, x1 (ix2 (brow g s) l) := by
  unfold k0_pay3 k0_pay1
  refine (Ideal.multiReduction_add_single _ _ reduces_S512x8x128_S8x128 _ _ (ix2 s l)).trans ?_
  refine Finset.sum_congr rfl fun g _ => ?_
  refine (reshape512_apply _ g s l).trans ?_
  simp only [shapeCast_self]

/-- The third partial sum at (s, l): the squared targets of those rows. -/
theorem pay4_apply (x1 : Vec Ideal S4096x128 .f32) (s : Fin 8) (l : Fin 128) :
    k0_pay4 (F := Ideal) x1 (ix2 s l) = ∑ g : Fin 512, x1 (ix2 (brow g s) l) * x1 (ix2 (brow g s) l) := by
  unfold k0_pay4 k0_pay1
  refine (Ideal.multiReduction_add_single _ _ reduces_S512x8x128_S8x128 _ _ (ix2 s l)).trans ?_
  refine Finset.sum_congr rfl fun g _ => ?_
  refine (reshape512_apply _ g s l).trans ?_
  simp only [shapeCast_self]
  rfl

/-- Summand `k` of a pair of blocks at row `r`, lane `l`: the squared difference, the target, the target's square. -/
def bterm (x0 x1 : Vec Ideal S4096x128 .f32) (k : Fin 3) (r : Fin 4096) (l : Fin 128) : EReal :=
  match k with
  | ⟨0, _⟩ => (x0 (ix2 r l) - x1 (ix2 r l)) * (x0 (ix2 r l) - x1 (ix2 r l))
  | ⟨1, _⟩ => x1 (ix2 r l)
  | ⟨2, _⟩ => x1 (ix2 r l) * x1 (ix2 r l)

/-- Partial sum `k` of a pair of blocks at (s, l): summand `k` over the 512 rows g * 8 + s. -/
def bpart (x0 x1 : Vec Ideal S4096x128 .f32) (k : Fin 3) (s : Fin 8) (l : Fin 128) : EReal :=
  ∑ g : Fin 512, bterm x0 x1 k (brow g s) l

/-! ## Slabs: an 8 x 128 value stored as, or loaded from, one 1 x 8 x 128 slab of the accumulator -/

/-- (s, l) of 8 x 128 and (0, s, l) of 1 x 8 x 128 are the same row-major position. -/
theorem rm_slab (s : Fin 8) (l : Fin 128) :
    (S8x128.rowMajor (ix2 s l)).val = (S1x8x128.rowMajor (ix3 (0 : Fin 1) s l)).val := by
  rw [Shape.rowMajor_val_two, Shape.rowMajor_val_three]
  show s.val * 128 + l.val = (0 * 8 + s.val) * 128 + l.val
  omega

/-- The slab at offset `o` along the leading axis places its index (0, s, l) at (o, s, l). -/
theorem slab_emb (o : ℕ) (ho : o < 3) (h : ∀ a, (![o, 0, 0] : Fin 3 → ℕ) a + S1x8x128.size a ≤ S3x8x128.size a)
    (s : Fin 8) (l : Fin 128) :
    (Rect.unit (s := S3x8x128) ![o, 0, 0] S1x8x128.size h).emb (ix3 (0 : Fin 1) s l) = ix3 (⟨o, ho⟩ : Fin 3) s l := by
  funext a
  apply Fin.ext
  match a with
  | ⟨0, _⟩ => show o + 1 * 0 = o; omega
  | ⟨1, _⟩ => show 0 + 1 * s.val = s.val; omega
  | ⟨2, _⟩ => show 0 + 1 * l.val = l.val; omega

/-- An index whose leading coordinate is not `o` lies off the slab at offset `o`. -/
theorem slab_not_mem (o : ℕ) (h : ∀ a, (![o, 0, 0] : Fin 3 → ℕ) a + S1x8x128.size a ≤ S3x8x128.size a)
    (k : Fin 3) (hk : k.val ≠ o) (s : Fin 8) (l : Fin 128) :
    ix3 k s l ∉ (Rect.unit (s := S3x8x128) ![o, 0, 0] S1x8x128.size h).set := by
  rw [Rect.mem_set_unit]
  intro hm
  have h0 : o ≤ k.val ∧ k.val < o + 1 := hm ⟨0, Nat.succ_pos 2⟩
  omega

section Slabs
variable {F : FTy → Type} [FloatOps F]

/-- Three slabs stored at offsets 0, 1, 2 (the last store listed first) read back, at (k, s, l), slab `k` at (0, s, l). -/
theorem canon_slabs (a0 a1 a2 : (⟨3, ![1, 8, 128]⟩ : Shape).Idx → Elt F .f32) (k : Fin 3) (s : Fin 8) (l : Fin 128) :
    View.canon (Val := Elt F)
        [(⟨Rect.unit (s := S3x8x128) ![2, 0, 0] S1x8x128.size inb_S3x8x128_S1x8x128_2_0_0, a2⟩ : View.Piece (Elt F) S3x8x128 .f32),
         ⟨Rect.unit (s := S3x8x128) ![1, 0, 0] S1x8x128.size inb_S3x8x128_S1x8x128_1_0_0, a1⟩,
         ⟨Rect.unit (s := S3x8x128) ![0, 0, 0] S1x8x128.size inb_S3x8x128_S1x8x128_0_0_0, a0⟩] (ix3 k s l)
      = match k with
        | ⟨0, _⟩ => a0 (ix3 0 s l)
        | ⟨1, _⟩ => a1 (ix3 0 s l)
        | ⟨2, _⟩ => a2 (ix3 0 s l) := by
  match k with
  | ⟨2, hk⟩ =>
    show View.canon _ (ix3 ⟨2, hk⟩ s l) = a2 (ix3 0 s l)
    rw [← slab_emb 2 hk inb_S3x8x128_S1x8x128_2_0_0 s l]
    exact View.canon_cons_emb _ _ _ _
  | ⟨1, hk⟩ =>
    show View.canon _ (ix3 ⟨1, hk⟩ s l) = a1 (ix3 0 s l)
    refine (View.canon_cons_of_not_mem _ _ ?_).trans ?_
    · exact slab_not_mem 2 inb_S3x8x128_S1x8x128_2_0_0 ⟨1, hk⟩ (by show (1 : ℕ) ≠ 2; omega) s l
    rw [← slab_emb 1 hk inb_S3x8x128_S1x8x128_1_0_0 s l]
    exact View.canon_cons_emb _ _ _ _
  | ⟨0, hk⟩ =>
    show View.canon _ (ix3 ⟨0, hk⟩ s l) = a0 (ix3 0 s l)
    refine (View.canon_cons_of_not_mem _ _ ?_).trans ?_
    · exact slab_not_mem 2 inb_S3x8x128_S1x8x128_2_0_0 ⟨0, hk⟩ (by show (0 : ℕ) ≠ 2; omega) s l
    refine (View.canon_cons_of_not_mem _ _ ?_).trans ?_
    · exact slab_not_mem 1 inb_S3x8x128_S1x8x128_1_0_0 ⟨0, hk⟩ (by show (0 : ℕ) ≠ 1; omega) s l
    rw [← slab_emb 0 hk inb_S3x8x128_S1x8x128_0_0_0 s l]
    exact View.canon_cons_emb _ _ _ _

end Slabs

/-- A slab of the accumulator loaded at offset `o` reads (0, s, l) at (o, s, l). -/
theorem ld_slab (xa : Vec Ideal S3x8x128 .f32) (o : ℕ) (ho : o < 3)
    (h : ∀ a, (![o, 0, 0] : Fin 3 → ℕ) a + S1x8x128.size a ≤ S3x8x128.size a) (s : Fin 8) (l : Fin 128) :
    View.ld xa (Rect.unit (s := S3x8x128) ![o, 0, 0] S1x8x128.size h) (ix3 (0 : Fin 1) s l) = xa (ix3 (⟨o, ho⟩ : Fin 3) s l) :=
  congrArg xa (slab_emb o ho h s l)

/-- What a first step stores in slab 0, 1, 2: the partial sum with a unit axis added. -/
theorem pay5_apply (x0 x1 : Vec Ideal S4096x128 .f32) (s : Fin 8) (l : Fin 128) :
    k0_pay5 (F := Ideal) x0 x1 (ix3 (0 : Fin 1) s l) = k0_pay2 (F := Ideal) x0 x1 (ix2 s l) := by
  unfold k0_pay5
  exact shapeCast_apply _ _ (ix3 (0 : Fin 1) s l) (ix2 s l) (rm_slab s l)
theorem pay6_apply (x1 : Vec Ideal S4096x128 .f32) (s : Fin 8) (l : Fin 128) :
    k0_pay6 (F := Ideal) x1 (ix3 (0 : Fin 1) s l) = k0_pay3 (F := Ideal) x1 (ix2 s l) := by
  unfold k0_pay6
  exact shapeCast_apply _ _ (ix3 (0 : Fin 1) s l) (ix2 s l) (rm_slab s l)
theorem pay7_apply (x1 : Vec Ideal S4096x128 .f32) (s : Fin 8) (l : Fin 128) :
    k0_pay7 (F := Ideal) x1 (ix3 (0 : Fin 1) s l) = k0_pay4 (F := Ideal) x1 (ix2 s l) := by
  unfold k0_pay7
  exact shapeCast_apply _ _ (ix3 (0 : Fin 1) s l) (ix2 s l) (rm_slab s l)

/-- What a later step stores in slab 0, 1, 2: the slab it loaded plus the partial sum. -/
theorem pay8_apply (x0 x1 : Vec Ideal S4096x128 .f32) (v : Vec Ideal S1x8x128 .f32) (s : Fin 8) (l : Fin 128) :
    k0_pay8 (F := Ideal) x0 x1 v (ix3 (0 : Fin 1) s l) = v (ix3 (0 : Fin 1) s l) + k0_pay2 (F := Ideal) x0 x1 (ix2 s l) := by
  unfold k0_pay8
  refine (shapeCast_apply _ _ (ix3 (0 : Fin 1) s l) (ix2 s l) (rm_slab s l)).trans ?_
  refine (addf_apply _ _ _).trans ?_
  exact congrArg (· + k0_pay2 (F := Ideal) x0 x1 (ix2 s l)) (shapeCast_apply _ _ (ix2 s l) (ix3 (0 : Fin 1) s l) (rm_slab s l).symm)
theorem pay9_apply (x1 : Vec Ideal S4096x128 .f32) (v : Vec Ideal S1x8x128 .f32) (s : Fin 8) (l : Fin 128) :
    k0_pay9 (F := Ideal) x1 v (ix3 (0 : Fin 1) s l) = v (ix3 (0 : Fin 1) s l) + k0_pay3 (F := Ideal) x1 (ix2 s l) := by
  unfold k0_pay9
  refine (shapeCast_apply _ _ (ix3 (0 : Fin 1) s l) (ix2 s l) (rm_slab s l)).trans ?_
  refine (addf_apply _ _ _).trans ?_
  exact congrArg (· + k0_pay3 (F := Ideal) x1 (ix2 s l)) (shapeCast_apply _ _ (ix2 s l) (ix3 (0 : Fin 1) s l) (rm_slab s l).symm)
theorem pay10_apply (x1 : Vec Ideal S4096x128 .f32) (v : Vec Ideal S1x8x128 .f32) (s : Fin 8) (l : Fin 128) :
    k0_pay10 (F := Ideal) x1 v (ix3 (0 : Fin 1) s l) = v (ix3 (0 : Fin 1) s l) + k0_pay4 (F := Ideal) x1 (ix2 s l) := by
  unfold k0_pay10
  refine (shapeCast_apply _ _ (ix3 (0 : Fin 1) s l) (ix2 s l) (rm_slab s l)).trans ?_
  refine (addf_apply _ _ _).trans ?_
  exact congrArg (· + k0_pay4 (F := Ideal) x1 (ix2 s l)) (shapeCast_apply _ _ (ix2 s l) (ix3 (0 : Fin 1) s l) (rm_slab s l).symm)

/-- The three slabs a first step stores read back as the partial sums. -/
theorem canon_first (x0 x1 : Vec Ideal S4096x128 .f32) (k : Fin 3) (s : Fin 8) (l : Fin 128) :
    View.canon (Val := Elt Ideal)
        [(⟨Rect.unit (s := S3x8x128) ![2, 0, 0] S1x8x128.size inb_S3x8x128_S1x8x128_2_0_0, k0_pay7 (F := Ideal) x1⟩ : View.Piece (Elt Ideal) S3x8x128 .f32),
         ⟨Rect.unit (s := S3x8x128) ![1, 0, 0] S1x8x128.size inb_S3x8x128_S1x8x128_1_0_0, k0_pay6 (F := Ideal) x1⟩,
         ⟨Rect.unit (s := S3x8x128) ![0, 0, 0] S1x8x128.size inb_S3x8x128_S1x8x128_0_0_0, k0_pay5 (F := Ideal) x0 x1⟩] (ix3 k s l)
      = bpart x0 x1 k s l := by
  refine (canon_slabs _ _ _ k s l).trans ?_
  match k with
  | ⟨0, _⟩ => exact (pay5_apply x0 x1 s l).trans (pay2_apply x0 x1 s l)
  | ⟨1, _⟩ => exact (pay6_apply x1 s l).trans (pay3_apply x1 s l)
  | ⟨2, _⟩ => exact (pay7_apply x1 s l).trans (pay4_apply x1 s l)

/-- The three slabs a later step stores, each over the slab it loaded, read back as the accumulator it found plus the partial sums. -/
theorem canon_later (x0 x1 : Vec Ideal S4096x128 .f32) (xa : Vec Ideal S3x8x128 .f32) (k : Fin 3) (s : Fin 8) (l : Fin 128) :
    View.canon (Val := Elt Ideal)
        [(⟨Rect.unit (s := S3x8x128) ![2, 0, 0] S1x8x128.size inb_S3x8x128_S1x8x128_2_0_0,
            k0_pay10 (F := Ideal) x1 (View.ld xa (Rect.unit (s := S3x8x128) ![2, 0, 0] S1x8x128.size inb_S3x8x128_S1x8x128_2_0_0))⟩ : View.Piece (Elt Ideal) S3x8x128 .f32),
         ⟨Rect.unit (s := S3x8x128) ![1, 0, 0] S1x8x128.size inb_S3x8x128_S1x8x128_1_0_0,
            k0_pay9 (F := Ideal) x1 (View.ld xa (Rect.unit (s := S3x8x128) ![1, 0, 0] S1x8x128.size inb_S3x8x128_S1x8x128_1_0_0))⟩,
         ⟨Rect.unit (s := S3x8x128) ![0, 0, 0] S1x8x128.size inb_S3x8x128_S1x8x128_0_0_0,
            k0_pay8 (F := Ideal) x0 x1 (View.ld xa (Rect.unit (s := S3x8x128) ![0, 0, 0] S1x8x128.size inb_S3x8x128_S1x8x128_0_0_0))⟩] (ix3 k s l)
      = xa (ix3 k s l) + bpart x0 x1 k s l := by
  refine (canon_slabs _ _ _ k s l).trans ?_
  match k with
  | ⟨0, hk⟩ =>
    exact (pay8_apply x0 x1 _ s l).trans (congrArg₂ (· + ·) (ld_slab xa 0 hk _ s l) (pay2_apply x0 x1 s l))
  | ⟨1, hk⟩ =>
    exact (pay9_apply x1 _ s l).trans (congrArg₂ (· + ·) (ld_slab xa 1 hk _ s l) (pay3_apply x1 s l))
  | ⟨2, hk⟩ =>
    exact (pay10_apply x1 _ s l).trans (congrArg₂ (· + ·) (ld_slab xa 2 hk _ s l) (pay4_apply x1 s l))

/-! ## What each case leaves, at an index -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A first step leaves the block pair's partial sums in the accumulator. -/
theorem accFirst_val (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : Body.isFirst i) (hl : ¬Body.isLater i) (he : ¬Body.isLast i)
    (x0 x1 : Vec Ideal S4096x128 .f32) (k : Fin 3) (s : Fin 8) (l : Fin 128) :
    Body.accFirst (F := Ideal) c i arg2 harg2 arg3 harg3 arg4 harg4 arg5 harg5 hf hl he x0 x1 (ix3 k s l) = bpart x0 x1 k s l := by
  unfold Body.accFirst
  rw [View.read_writes_eq_canon _ _ _ (Body.accCover_first c i arg2 harg2 arg3 harg3 arg4 harg4 arg5 harg5 hf hl he x0 x1)]
  unfold Body.runFirst
  dsimp only
  sl_unfold_words
  simp only [View.readAt_eq_ld, harg2.read_unread, harg3.read_unread, View.ld_unit_zero (S := S4096x128) hz2]
  exact canon_first x0 x1 k s l

/-- A middle step leaves what the accumulator held plus the block pair's partial sums. -/
theorem accMid_val (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬Body.isFirst i) (hl : Body.isLater i) (he : ¬Body.isLast i)
    (x0 x1 : Vec Ideal S4096x128 .f32) (xa : Vec Ideal S3x8x128 .f32) (k : Fin 3) (s : Fin 8) (l : Fin 128) :
    Body.accMid (F := Ideal) c i arg2 harg2 arg3 harg3 arg4 harg4 arg5 harg5 hf hl he x0 x1 xa (ix3 k s l) = xa (ix3 k s l) + bpart x0 x1 k s l := by
  unfold Body.accMid
  rw [View.read_writes_eq_canon _ _ _ (Body.accCover_mid c i arg2 harg2 arg3 harg3 arg4 harg4 arg5 harg5 hf hl he x0 x1 xa)]
  unfold Body.runMid
  dsimp only
  sl_unfold_words
  simp only [View.readAt_eq_ld, harg2.read_unread, harg3.read_unread, harg5.read_unread, View.ld_unit_zero (S := S4096x128) hz2]
  exact canon_later x0 x1 xa k s l

/-- So does a last step, -/
theorem accLast_val (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬Body.isFirst i) (hl : Body.isLater i) (he : Body.isLast i)
    (x0 x1 : Vec Ideal S4096x128 .f32) (xa : Vec Ideal S3x8x128 .f32) (k : Fin 3) (s : Fin 8) (l : Fin 128) :
    Body.accLast (F := Ideal) c i arg2 harg2 arg3 harg3 arg4 harg4 arg5 harg5 hf hl he x0 x1 xa (ix3 k s l) = xa (ix3 k s l) + bpart x0 x1 k s l := by
  unfold Body.accLast
  rw [View.read_writes_eq_canon _ _ _ (Body.accCover_last c i arg2 harg2 arg3 harg3 arg4 harg4 arg5 harg5 hf hl he x0 x1 xa)]
  unfold Body.runLast
  dsimp only
  sl_unfold_words
  simp only [View.readAt_eq_ld, harg2.read_unread, harg3.read_unread, harg5.read_unread, View.ld_unit_zero (S := S4096x128) hz2]
  exact canon_later x0 x1 xa k s l

/-- The whole accumulator loaded at zero offsets reads each index at itself. -/
theorem whole3_idx (h : ∀ a, (![0, 0, 0] : Fin 3 → ℕ) a + S3x8x128.size a ≤ S3x8x128.size a) (k : Fin 3) (s : Fin 8) (l : Fin 128) :
    (Rect.unit (s := S3x8x128) ![0, 0, 0] S3x8x128.size h).toLoadRect.idx (ix3 k s l) = ix3 k s l := by
  funext a
  apply Fin.ext
  match a with
  | ⟨0, _⟩ => show 0 + 1 * k.val = k.val; omega
  | ⟨1, _⟩ => show 0 + 1 * s.val = s.val; omega
  | ⟨2, _⟩ => show 0 + 1 * l.val = l.val; omega

/-- and it copies the accumulator it leaves into the output buffer, under a leading unit axis. -/
theorem outLast_val (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x3x8x128 .f32) (harg4 : arg4.IsWhole) (arg5 : Memref sig .tc .vmem S3x8x128 .f32) (harg5 : arg5.IsWhole) (hf : ¬Body.isFirst i) (hl : Body.isLater i) (he : Body.isLast i)
    (x0 x1 : Vec Ideal S4096x128 .f32) (xa : Vec Ideal S3x8x128 .f32) (k : Fin 3) (s : Fin 8) (l : Fin 128) :
    Body.outLast (F := Ideal) c i arg2 harg2 arg3 harg3 arg4 harg4 arg5 harg5 hf hl he x0 x1 xa (ix4 (0 : Fin 1) k s l) = xa (ix3 k s l) + bpart x0 x1 k s l := by
  unfold Body.outLast
  rw [View.read_writes_eq_canon _ _ _ (Body.outCover_last c i arg2 harg2 arg3 harg3 arg4 harg4 arg5 harg5 hf hl he x0 x1 xa)]
  unfold Body.runLast
  dsimp only
  sl_unfold_words
  rw [View.canon_unit_zero hz4]
  simp only [View.readAt_eq_ld, harg2.read_unread, harg3.read_unread, harg5.read_unread, View.ld_unit_zero (S := S4096x128) hz2]
  unfold k0_pay11
  refine (shapeCast_apply _ _ (ix4 (0 : Fin 1) k s l) (ix3 k s l) ?_).trans ?_
  · rw [Shape.rowMajor_val_three, Shape.rowMajor_val_four]
    show (k.val * 8 + s.val) * 128 + l.val = ((0 * 3 + k.val) * 8 + s.val) * 128 + l.val
    omega
  rw [View.readCov_eq_canon']
  refine (congrArg (View.canon _) (whole3_idx _ k s l)).trans ?_
  exact canon_later x0 x1 xa k s l

end Cert.KernelIdeal.KernelValue

end
-- ==== Proof.KernelAcc.lean ====
/-
  What the streaming kernel's accumulator and output buffer hold, at the ideal instance, as sums of the three summands.

  With the inputs laid out as 65536 rows of 128 lanes, point (core c', step i) reads rows (8c' + i) * 4096 .. + 4096, and its
  partial sum at (sublane s, lane l) adds the 512 rows g * 8 + s of that block. The accumulator after step i is the sum of the
  partial sums of steps 0 .. i, so at a core's last step the output buffer's entry (k, s, l) is the sum over the core's eight
  steps and the 512 groups of summand k.
-/
import proofs.«151391_g2000509514383055_pallasbulk_1306_2_alg».proof.Proof.KernelIdeal.Frame
import proofs.«151391_g2000509514383055_pallasbulk_1306_2_alg».proof.Proof.Spec
import proofs.«151391_g2000509514383055_pallasbulk_1306_2_alg».proof.Proof.KernelPieces
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.KernelValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The two argument arrays as 65536 rows of 128 lanes. -/
abbrev argP (c : Dev nD) : FVec Ideal Nmse.SRows .f32 :=
  Nmse.rows Gen.shapeCasts_S2048x4096_S8388608 Gen.shapeCasts_S8388608_S65536x128 (m ((c.tc : Thread nD τ).loc main_arg0))
abbrev argT (c : Dev nD) : FVec Ideal Nmse.SRows .f32 :=
  Nmse.rows Gen.shapeCasts_S2048x4096_S8388608 Gen.shapeCasts_S8388608_S65536x128 (m ((c.tc : Thread nD τ).loc main_arg1))

/-- Core `c'`'s last grid point. -/
def lastPt (c' : Fin 2) : Fin cfg0.N := ⟨c'.val * 8 + 7, by have : cfg0.N = 16 := N_0; omega⟩

/-! ## The blocks in the argument arrays -/

/-- The two arrays the region reads, and point `t`'s blocks of them, at their literal types. -/
abbrev arrP (c : Dev nD) : Vec Ideal S65536x128 .f32 := V m c main_v2
abbrev arrT (c : Dev nD) : Vec Ideal S65536x128 .f32 := V m c main_v3
abbrev blkP (c : Dev nD) (t : Fin cfg0.N) : Vec Ideal S4096x128 .f32 := iblk m c 0 t
abbrev blkT (c : Dev nD) (t : Fin cfg0.N) : Vec Ideal S4096x128 .f32 := iblk m c 1 t

/-- The host reshapes before the region leave the arguments as rows of 128 lanes. -/
theorem arrP_eq (c : Dev nD) : arrP m c = argP m c := by
  show StableHlo.after hostOps0 (fun b => m (c, b)) (Proc.devRef .tc main_v2) = _
  after_results
  rfl
theorem arrT_eq (c : Dev nD) : arrT m c = argT m c := by
  show StableHlo.after hostOps0 (fun b => m (c, b)) (Proc.devRef .tc main_v3) = _
  after_results
  rfl

/-- Both input windows' block index at point `t` is `t` itself along the rows (8 * core + step, in row-major point order), 0 along the lanes. -/
theorem blkIdx0 : ∀ t : Fin cfg0.N, win0_0.index t 0 = t.val ∧ win0_0.index t 1 = 0 :=
  (by decide +kernel : ∀ t : Fin grid0.N, win0_0.index t 0 = t.val ∧ win0_0.index t 1 = 0)
theorem blkIdx1 : ∀ t : Fin cfg0.N, win0_1.index t 0 = t.val ∧ win0_1.index t 1 = 0 :=
  (by decide +kernel : ∀ t : Fin grid0.N, win0_1.index t 0 = t.val ∧ win0_1.index t 1 = 0)

/-- Row `r` of point `t`'s block, in the 65536-row arrays. -/
def arow (t : Fin cfg0.N) (r : Fin 4096) : Fin 65536 :=
  ⟨t.val * 4096 + r.val, by have := t.isLt; have hN : cfg0.N = 16 := N_0; omega⟩

/-- A block read at (r, l) is the array at (t * 4096 + r, l). -/
theorem blkP_apply (c : Dev nD) (t : Fin cfg0.N) (r : Fin 4096) (l : Fin 128) :
    blkP m c t (ix2 r l) = argP m c (ix2 (arow t r) l) := by
  rw [← arrP_eq m c]
  show V m c main_v2 (((cfg0.win 0).blk t).view.emb (ix2 r l)) = V m c main_v2 (ix2 (arow t r) l)
  refine congrArg (arrP m c) ?_
  funext a
  apply Fin.ext
  match a with
  | ⟨0, _⟩ => show win0_0.index t 0 * 4096 + 1 * r.val = t.val * 4096 + r.val; rw [(blkIdx0 t).1]; omega
  | ⟨1, _⟩ => show win0_0.index t 1 * 128 + 1 * l.val = l.val; rw [(blkIdx0 t).2]; omega
theorem blkT_apply (c : Dev nD) (t : Fin cfg0.N) (r : Fin 4096) (l : Fin 128) :
    blkT m c t (ix2 r l) = argT m c (ix2 (arow t r) l) := by
  rw [← arrT_eq m c]
  show V m c main_v3 (((cfg0.win 1).blk t).view.emb (ix2 r l)) = V m c main_v3 (ix2 (arow t r) l)
  refine congrArg (arrT m c) ?_
  funext a
  apply Fin.ext
  match a with
  | ⟨0, _⟩ => show win0_1.index t 0 * 4096 + 1 * r.val = t.val * 4096 + r.val; rw [(blkIdx1 t).1]; omega
  | ⟨1, _⟩ => show win0_1.index t 1 * 128 + 1 * l.val = l.val; rw [(blkIdx1 t).2]; omega

/-- So a block pair's summand is the arrays' summand at that row. -/
theorem bterm_blk (c : Dev nD) (t : Fin cfg0.N) (k : Fin 3) (r : Fin 4096) (l : Fin 128) :
    bterm (blkP m c t) (blkT m c t) k r l = Nmse.term (argP m c) (argT m c) k.val (arow t r) l := by
  match k with
  | ⟨0, _⟩ =>
    show (blkP m c t (ix2 r l) - blkT m c t (ix2 r l)) * (blkP m c t (ix2 r l) - blkT m c t (ix2 r l))
      = (argP m c (ix2 (arow t r) l) - argT m c (ix2 (arow t r) l)) * (argP m c (ix2 (arow t r) l) - argT m c (ix2 (arow t r) l))
    rw [blkP_apply m c t r l, blkT_apply m c t r l]
  | ⟨1, _⟩ =>
    show blkT m c t (ix2 r l) = argT m c (ix2 (arow t r) l)
    exact blkT_apply m c t r l
  | ⟨2, _⟩ =>
    show blkT m c t (ix2 r l) * blkT m c t (ix2 r l) = argT m c (ix2 (arow t r) l) * argT m c (ix2 (arow t r) l)
    rw [blkT_apply m c t r l]

/-- Row g * 8 + s of block `b`, in the 65536-row arrays (reduced modulo 65536 so as to be defined for every `b`; the blocks met are below 16). -/
def rowOf (b : ℕ) (g : Fin 512) (s : Fin 8) : Fin 65536 :=
  ⟨(b * 4096 + (g.val * 8 + s.val)) % 65536, Nat.mod_lt _ (by decide)⟩

theorem arow_brow (t : Fin cfg0.N) (g : Fin 512) (s : Fin 8) : arow t (brow g s) = rowOf t.val g s := by
  apply Fin.ext
  have ht := t.isLt
  have hN : cfg0.N = 16 := N_0
  show t.val * 4096 + (g.val * 8 + s.val) = (t.val * 4096 + (g.val * 8 + s.val)) % 65536
  omega

theorem rowK_eq (c' : Fin 2) (i : Fin 8) (g : Fin 512) (s : Fin 8) : Nmse.rowK c' i g s = rowOf (c'.val * 8 + i.val) g s := by
  apply Fin.ext
  show (c'.val * 8 + i.val) * 4096 + (g.val * 8 + s.val) = ((c'.val * 8 + i.val) * 4096 + (g.val * 8 + s.val)) % 65536
  omega

/-- Block `b`'s partial sum `k` at (s, l), over the argument arrays. -/
def blockSum (c : Dev nD) (b : ℕ) (k : Fin 3) (s : Fin 8) (l : Fin 128) : EReal :=
  ∑ g : Fin 512, Nmse.term (argP m c) (argT m c) k.val (rowOf b g s) l

theorem bpart_blk (c : Dev nD) (t : Fin cfg0.N) (k : Fin 3) (s : Fin 8) (l : Fin 128) :
    bpart (blkP m c t) (blkT m c t) k s l = blockSum m c t.val k s l := by
  unfold bpart blockSum
  refine Finset.sum_congr rfl fun g _ => ?_
  rw [bterm_blk m c t k (brow g s) l, arow_brow]

/-! ## The accumulator after each point -/

/-- The partial sums of the blocks of steps 0 .. n % 8 of point `n`'s core. -/
def accSum (c : Dev nD) (n : ℕ) (k : Fin 3) (s : Fin 8) (l : Fin 128) : EReal :=
  ∑ j ∈ Finset.range (n % 8 + 1), blockSum m c (n / 8 * 8 + j) k s l

/-- Past a core's first step the sum gains this point's block. -/
theorem accSum_succ (c : Dev nD) (n : ℕ) (h0 : ¬n % 8 = 0) (k : Fin 3) (s : Fin 8) (l : Fin 128) :
    accSum m c n k s l = accSum m c (n - 1) k s l + blockSum m c n k s l := by
  unfold accSum
  have e1 : (n - 1) % 8 + 1 = n % 8 := by omega
  have e2 : (n - 1) / 8 = n / 8 := by omega
  have e3 : n / 8 * 8 + n % 8 = n := by omega
  rw [Finset.sum_range_succ (fun j => blockSum m c (n / 8 * 8 + j) k s l) (n % 8), e1, e2, e3]

/-- At a core's first step it is this point's block alone. -/
theorem accSum_first (c : Dev nD) (n : ℕ) (h0 : n % 8 = 0) (k : Fin 3) (s : Fin 8) (l : Fin 128) :
    accSum m c n k s l = blockSum m c n k s l := by
  unfold accSum
  have e3 : n / 8 * 8 + 0 = n := by omega
  rw [h0, Nat.zero_add, Finset.sum_range_one, e3]

/-- After every point the accumulator holds that sum: by induction on the point, the body's three cases being the sum's recurrence. -/
theorem acc_inv (c : Dev nD) : ∀ (n : ℕ) (t : Fin cfg0.N), t.val = n → ∀ (k : Fin 3) (s : Fin 8) (l : Fin 128),
    (Body.stateAt (F := Ideal) m c t.val t.isLt).2 (ix3 k s l) = accSum m c t.val k s l := by
  intro n
  induction n using Nat.strong_induction_on with
  | _ n ih =>
    intro t ht k s l
    have hN : cfg0.N = 16 := N_0
    by_cases h0 : t.val % 8 = 0
    · have hf : Body.isFirst (grid0.coords t) := (Body.isFirst_iff t).mpr h0
      have hl : ¬Body.isLater (grid0.coords t) := fun h => (Body.isLater_iff t).mp h h0
      have he : ¬Body.isLast (grid0.coords t) := fun h => by have := (Body.isLast_iff t).mp h; omega
      rw [Body.stateAt_first m c t h0 hf hl he]
      dsimp only
      refine (accFirst_val c (grid0.coords t) (Body.stgP t) (Body.stgP_whole t) (Body.stgT t) (Body.stgT_whole t) (Body.stgO t) (Body.stgO_whole t) Body.accM (Memref.isWhole_whole _) hf hl he (blkP m c t) (blkT m c t) k s l).trans ?_
      rw [bpart_blk m c t k s l, accSum_first m c t.val h0 k s l]
    · have hf : ¬Body.isFirst (grid0.coords t) := fun h => h0 ((Body.isFirst_iff t).mp h)
      have hl : Body.isLater (grid0.coords t) := (Body.isLater_iff t).mpr h0
      have hpos : 0 < t.val := by omega
      have ihp : (Body.stateAt (F := Ideal) m c (t.val - 1) (Body.pred_lt t)).2 (ix3 k s l) = accSum m c (t.val - 1) k s l :=
        ih (t.val - 1) (by omega) ⟨t.val - 1, Body.pred_lt t⟩ rfl k s l
      by_cases h7 : t.val % 8 = 7
      · have he : Body.isLast (grid0.coords t) := (Body.isLast_iff t).mpr h7
        rw [Body.stateAt_last m c t h0 h7 hf hl he]
        dsimp only
        refine (accLast_val c (grid0.coords t) (Body.stgP t) (Body.stgP_whole t) (Body.stgT t) (Body.stgT_whole t) (Body.stgO t) (Body.stgO_whole t) Body.accM (Memref.isWhole_whole _) hf hl he (blkP m c t) (blkT m c t) (Body.stateAt (F := Ideal) m c (t.val - 1) (Body.pred_lt t)).2 k s l).trans ?_
        rw [ihp, bpart_blk m c t k s l, accSum_succ m c t.val h0 k s l]
      · have he : ¬Body.isLast (grid0.coords t) := fun h => h7 ((Body.isLast_iff t).mp h)
        rw [Body.stateAt_mid m c t h0 h7 hf hl he]
        dsimp only
        refine (accMid_val c (grid0.coords t) (Body.stgP t) (Body.stgP_whole t) (Body.stgT t) (Body.stgT_whole t) (Body.stgO t) (Body.stgO_whole t) Body.accM (Memref.isWhole_whole _) hf hl he (blkP m c t) (blkT m c t) (Body.stateAt (F := Ideal) m c (t.val - 1) (Body.pred_lt t)).2 k s l).trans ?_
        rw [ihp, bpart_blk m c t k s l, accSum_succ m c t.val h0 k s l]

/-- At a core's last step the output buffer is the accumulator the step leaves. -/
theorem out_eq_acc (c : Dev nD) (t : Fin cfg0.N) (h0 : ¬t.val % 8 = 0) (h7 : t.val % 8 = 7) (k : Fin 3) (s : Fin 8) (l : Fin 128) :
    (Body.stateAt (F := Ideal) m c t.val t.isLt).1 (ix4 (0 : Fin 1) k s l)
      = (Body.stateAt (F := Ideal) m c t.val t.isLt).2 (ix3 k s l) := by
  have hf : ¬Body.isFirst (grid0.coords t) := fun h => h0 ((Body.isFirst_iff t).mp h)
  have hl : Body.isLater (grid0.coords t) := (Body.isLater_iff t).mpr h0
  have he : Body.isLast (grid0.coords t) := (Body.isLast_iff t).mpr h7
  rw [Body.stateAt_last m c t h0 h7 hf hl he]
  dsimp only
  exact (outLast_val c (grid0.coords t) (Body.stgP t) (Body.stgP_whole t) (Body.stgT t) (Body.stgT_whole t) (Body.stgO t) (Body.stgO_whole t) Body.accM (Memref.isWhole_whole _) hf hl he (blkP m c t) (blkT m c t) (Body.stateAt (F := Ideal) m c (t.val - 1) (Body.pred_lt t)).2 k s l).trans
    (accLast_val c (grid0.coords t) (Body.stgP t) (Body.stgP_whole t) (Body.stgT t) (Body.stgT_whole t) (Body.stgO t) (Body.stgO_whole t) Body.accM (Memref.isWhole_whole _) hf hl he (blkP m c t) (blkT m c t) (Body.stateAt (F := Ideal) m c (t.val - 1) (Body.pred_lt t)).2 k s l).symm

/-- At a core's last step the output buffer's entry (k, s, l) is the sum, over the core's eight steps and the 512 row groups
    of a block, of summand `k` at that row and lane `l`. -/
theorem out_last (c : Dev nD) (c' : Fin 2) (k : Fin 3) (s : Fin 8) (l : Fin 128) :
    (Body.stateAt (F := Ideal) m c (lastPt c').val (lastPt c').isLt).1 (ix4 (0 : Fin 1) k s l)
      = ∑ i : Fin 8, ∑ g : Fin 512, Nmse.term (argP m c) (argT m c) k.val (Nmse.rowK c' i g s) l := by
  have hv : (lastPt c').val = c'.val * 8 + 7 := rfl
  have h0 : ¬(lastPt c').val % 8 = 0 := by rw [hv]; omega
  have h7 : (lastPt c').val % 8 = 7 := by rw [hv]; omega
  rw [out_eq_acc m c (lastPt c') h0 h7 k s l, acc_inv m c _ (lastPt c') rfl k s l]
  unfold accSum
  have e1 : (lastPt c').val % 8 + 1 = 8 := by rw [h7]
  have e2 : (lastPt c').val / 8 * 8 = c'.val * 8 := by rw [hv]; omega
  rw [e1, e2, Finset.sum_range]
  refine Finset.sum_congr rfl fun i _ => ?_
  unfold blockSum
  refine Finset.sum_congr rfl fun g _ => ?_
  rw [rowK_eq]

end Cert.KernelIdeal.KernelValue

end
-- ==== Proof.SpecSums.lean ====
/-
  Two ways of bracketing the total of a function over 65536 rows x 128 lanes.

  The kernel groups a row index as ((core * 8 + step) * 512 + group) * 8 + sublane and, for each core, sublane and lane,
  adds over the steps and the groups; the reference groups it as (core * 16 + step) * 2048 + row and, for each core, row and
  lane, adds over the steps. Each grouping is a bijection with the 65536 rows, and addition of extended reals is commutative and associative,
  so each bracketing is the plain total.
-/
import proofs.«151391_g2000509514383055_pallasbulk_1306_2_alg».proof.Proof.Spec
import Mathlib.Algebra.BigOperators.Fin
import Mathlib.Algebra.BigOperators.Group.Finset.Basic
import Mathlib.Algebra.BigOperators.Group.Finset.Sigma
import Mathlib.Data.Fintype.BigOperators
import Mathlib.Logic.Equiv.Fin.Basic

noncomputable section

open scoped BigOperators

namespace Nmse

/-! ### The two groupings of the row index are bijections

  A row index R < 65536 has the unique mixed-radix digits
  (R / 32768, R / 4096 mod 8, R / 8 mod 512, R mod 8) in the radices (2, 8, 512, 8), and
  (R / 32768, R / 2048 mod 16, R mod 2048) in the radices (2, 16, 2048); `rowK` and `rowR` rebuild R from them. -/

/-- (core, step, group, sublane) ↦ row, with the digits of the row as the inverse. -/
def equivK : Fin 2 × Fin 8 × Fin 512 × Fin 8 ≃ Fin 65536 where
  toFun p := rowK p.1 p.2.1 p.2.2.1 p.2.2.2
  invFun R := (⟨R.val / 32768, by omega⟩, ⟨R.val / 4096 % 8, by omega⟩, ⟨R.val / 8 % 512, by omega⟩,
    ⟨R.val % 8, by omega⟩)
  left_inv := by
    rintro ⟨c, i, g, s⟩
    simp only [rowK, Prod.mk.injEq, Fin.ext_iff]
    omega
  right_inv := by
    intro R
    simp only [rowK, Fin.ext_iff]
    omega

/-- (core, step, row of the block) ↦ row, with the digits of the row as the inverse. -/
def equivR : Fin 2 × Fin 16 × Fin 2048 ≃ Fin 65536 where
  toFun p := rowR p.1 p.2.1 p.2.2
  invFun R := (⟨R.val / 32768, by omega⟩, ⟨R.val / 2048 % 16, by omega⟩, ⟨R.val % 2048, by omega⟩)
  left_inv := by
    rintro ⟨c, i, r⟩
    simp only [rowR, Prod.mk.injEq, Fin.ext_iff]
    omega
  right_inv := by
    intro R
    simp only [rowR, Fin.ext_iff]
    omega

/-! ### Re-ordering nested finite sums in a commutative monoid -/

section Reorder

variable {M : Type*} [AddCommMonoid M]
variable {α β γ δ : Type*} [Fintype α] [Fintype β] [Fintype γ] [Fintype δ]

/-- Moving the two outer indices of a four-fold sum inside, past the two inner ones. -/
theorem sum_swap_pairs (X : α → β → γ → δ → M) :
    ∑ s, ∑ l, ∑ i, ∑ g, X i g s l = ∑ i, ∑ g, ∑ s, ∑ l, X i g s l :=
  calc ∑ s, ∑ l, ∑ i, ∑ g, X i g s l
      = ∑ s, ∑ i, ∑ l, ∑ g, X i g s l := Finset.sum_congr rfl fun _ _ => Finset.sum_comm
    _ = ∑ s, ∑ i, ∑ g, ∑ l, X i g s l :=
        Finset.sum_congr rfl fun _ _ => Finset.sum_congr rfl fun _ _ => Finset.sum_comm
    _ = ∑ i, ∑ s, ∑ g, ∑ l, X i g s l := Finset.sum_comm
    _ = ∑ i, ∑ g, ∑ s, ∑ l, X i g s l := Finset.sum_congr rfl fun _ _ => Finset.sum_comm

/-- Moving the innermost index of a three-fold sum outermost. -/
theorem sum_rotate (X : α → β → γ → M) :
    ∑ r, ∑ l, ∑ i, X i r l = ∑ i, ∑ r, ∑ l, X i r l :=
  calc ∑ r, ∑ l, ∑ i, X i r l
      = ∑ r, ∑ i, ∑ l, X i r l := Finset.sum_congr rfl fun _ _ => Finset.sum_comm
    _ = ∑ i, ∑ r, ∑ l, X i r l := Finset.sum_comm

end Reorder

/-- The kernel's bracketing: per core, sublane and lane, the sum over the eight steps of the sum over the 512 groups. -/
theorem kernel_sum (h : Fin 65536 → Fin 128 → EReal) :
    ∑ c : Fin 2, ∑ s : Fin 8, ∑ l : Fin 128, ∑ i : Fin 8, ∑ g : Fin 512, h (rowK c i g s) l = total h := by
  -- the plain total, re-indexed by the digits (core, step, group, sublane) of the row
  have hR : total h = ∑ c : Fin 2, ∑ i : Fin 8, ∑ g : Fin 512, ∑ s : Fin 8, ∑ l : Fin 128, h (rowK c i g s) l := by
    unfold total
    rw [← Equiv.sum_comp equivK (fun R => ∑ l, h R l)]
    simp only [Fintype.sum_prod_type]
    rfl
  rw [hR]
  -- for each core, the (sublane, lane) pair of sums moves inside the (step, group) pair
  exact Finset.sum_congr rfl fun c _ => sum_swap_pairs (fun i g s l => h (rowK c i g s) l)

/-- The reference's bracketing: per core, the sum over the block's 2048 rows and 128 lanes of the sum over the sixteen steps. -/
theorem ref_sum (h : Fin 65536 → Fin 128 → EReal) :
    ∑ c : Fin 2, ∑ r : Fin 2048, ∑ l : Fin 128, ∑ i : Fin 16, h (rowR c i r) l = total h := by
  -- the plain total, re-indexed by the digits (core, step, row of the block) of the row
  have hR : total h = ∑ c : Fin 2, ∑ i : Fin 16, ∑ r : Fin 2048, ∑ l : Fin 128, h (rowR c i r) l := by
    unfold total
    rw [← Equiv.sum_comp equivR (fun R => ∑ l, h R l)]
    simp only [Fintype.sum_prod_type]
    rfl
  rw [hR]
  -- for each core, the step sum moves outside the (row, lane) pair
  exact Finset.sum_congr rfl fun c _ => sum_rotate (fun i r l => h (rowR c i r) l)

end Nmse

end
-- ==== Proof.KernelValue.lean ====
/-
  What the kernel program computes at the ideal instance: its final scalar as the one function `Nmse.result` of the two
  argument arrays.
-/
import proofs.«151391_g2000509514383055_pallasbulk_1306_2_alg».proof.Proof.KernelAcc
import proofs.«151391_g2000509514383055_pallasbulk_1306_2_alg».proof.Proof.SpecSums
import Idealize.ShloMosaic.Lib.IdealHost

set_option maxRecDepth 16384

noncomputable section

open scoped BigOperators

namespace Cert.KernelIdeal.KernelValue

open Idealize.ShloMosaic Idealize.ShloMosaic.TcCoe Idealize.ShloMosaic.ValueIdx Idealize.SL.Sem
open Cert.KernelIdeal Cert.KernelIdeal.Gen

/-! ## A sum over a rank-4 index set, and the host's sum over axes 0, 2 and 3 -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- Dropping axes 0, 2 and 3 of a [2, 3, 8, 128] index keeps its axis-1 coordinate. -/
theorem drop_ix4 (a : Fin 2) (b : Fin 3) (s : Fin 8) (l : Fin 128) :
    reducesTo_S2x3x8x128_S3_d0_2_3.drop (ix4 a b s l) = ix1 b := by
  funext d
  match d with
  | ⟨0, _⟩ => exact Fin.ext rfl

/-- The host's sum over axes 0, 2 and 3 of a [2, 3, 8, 128] array at component `k`: the initial value plus the
    threefold sum over the other coordinates. -/
theorem hostReduce_apply (x : FVec Ideal S2x3x8x128 .f32) (init : EReal) (k : Fin 3) :
    Ideal.hostReduceAdd reducesTo_S2x3x8x128_S3_d0_2_3 x init (ix1 k)
      = init + ∑ a : Fin 2, ∑ s : Fin 8, ∑ l : Fin 128, x (ix4 a k s l) := by
  unfold Ideal.hostReduceAdd
  congr 1
  rw [Finset.sum_filter, sum_idx4]
  refine Finset.sum_congr rfl fun a _ => ?_
  simp only [drop_ix4]
  have hk : ∀ b : Fin 3, (ix1 b = ix1 k) ↔ b = k := fun b =>
    ⟨fun h => congrFun h 0, fun h => by rw [h]⟩
  simp only [hk]
  rw [Finset.sum_eq_single k]
  · simp only [if_true]
  · intro b _ hb
    simp only [if_neg hb, Finset.sum_const_zero]
  · intro h; exact absurd (Finset.mem_univ k) h

variable (m : (ℓ : Loc nD τ sig) → Buf (Elt Ideal) ℓ)

/-! ## The output array after the region -/

/-- Entry (core c', summand k, sublane s, lane l) of the output array: the sum over the core's eight steps and the 512 row
    groups of a block of summand k. -/
def outEntry (c : Dev nD) (c' : Fin 2) (k : Fin 3) (s : Fin 8) (l : Fin 128) : EReal :=
  ∑ i : Fin 8, ∑ g : Fin 512, Nmse.term (argP m c) (argT m c) k.val (Nmse.rowK c' i g s) l

/-- The output array as one function of its index. -/
def outArr (c : Dev nD) : FVec Ideal S2x3x8x128 .f32 := fun y => outEntry m c (y 0) (y 1) (y 2) (y 3)

theorem outArr_ix4 (c : Dev nD) (c' : Fin 2) (k : Fin 3) (s : Fin 8) (l : Fin 128) :
    outArr m c (ix4 c' k s l) = outEntry m c c' k s l := rfl

/-- The output window's block index at a point: the point's core on axis 0, zero on the other axes. -/
theorem out_index : ∀ t : Fin cfg0.N, win0_2.index t (0 : Fin 4) = t.val / 8 ∧ win0_2.index t (1 : Fin 4) = 0
    ∧ win0_2.index t (2 : Fin 4) = 0 ∧ win0_2.index t (3 : Fin 4) = 0 :=
  (by decide +kernel : ∀ t : Fin grid0.N, _)

/-- A point that writes the output block back is some core's last point. -/
theorem flush_lastPt (t : Fin cfg0.N) (hf : (cfg0.win 2).flush t = true) : ∃ c' : Fin 2, t = lastPt c' := by
  have h7 : t.val % 8 = 7 := (flush0_2 t).mp hf
  have hN : cfg0.N = 16 := N_0
  have hlt := t.isLt
  exact ⟨⟨t.val / 8, by omega⟩, Fin.ext (by show t.val = t.val / 8 * 8 + 7; omega)⟩

/-- What a core's last point writes back is its block of the output array. -/
theorem flushed_eq (c : Dev nD) (t : Fin cfg0.N) (hf : (cfg0.win 2).flush t = true) :
    (Body.dats (F := Ideal) m 0 c).flushed 2 t = ((cfg0.win 2).blk t).view.read (Elt Ideal) (outArr m c) := by
  obtain ⟨c', rfl⟩ := flush_lastPt t hf
  show (cfg0.win 2).cut (grid0.coords (lastPt c')) ((Body.dats (F := Ideal) m 0 c).after 2 (lastPt c')) = _
  rw [Body.after_2]
  funext y
  have hy0 : (y 0).val < 1 := (y 0).isLt
  have hy1 : (y 1).val < 3 := (y 1).isLt
  have hy2 : (y 2).val < 8 := (y 2).isLt
  have hy3 : (y 3).val < 128 := (y 3).isLt
  obtain ⟨i0, i1, i2, i3⟩ := out_index (lastPt c')
  have e1 : (cfg0.win 2).xinj (grid0.coords (lastPt c')) y
      = ix4 (0 : Fin 1) (⟨(y 1).val, hy1⟩ : Fin 3) (⟨(y 2).val, hy2⟩ : Fin 8) (⟨(y 3).val, hy3⟩ : Fin 128) := by
    funext a; apply Fin.ext
    match a with
    | ⟨0, _⟩ => show (y 0).val = 0; omega
    | ⟨1, _⟩ => rfl
    | ⟨2, _⟩ => rfl
    | ⟨3, _⟩ => rfl
  have e2 : ((cfg0.win 2).blk (lastPt c')).view.emb y
      = ix4 c' (⟨(y 1).val, hy1⟩ : Fin 3) (⟨(y 2).val, hy2⟩ : Fin 8) (⟨(y 3).val, hy3⟩ : Fin 128) := by
    funext a; apply Fin.ext
    match a with
    | ⟨0, _⟩ =>
      show win0_2.index (lastPt c') (0 : Fin 4) * 1 + 1 * (y 0).val = c'.val
      rw [i0]; show (c'.val * 8 + 7) / 8 * 1 + 1 * (y 0).val = c'.val; omega
    | ⟨1, _⟩ => show win0_2.index (lastPt c') (1 : Fin 4) * 3 + 1 * (y 1).val = (y 1).val; omega
    | ⟨2, _⟩ => show win0_2.index (lastPt c') (2 : Fin 4) * 8 + 1 * (y 2).val = (y 2).val; omega
    | ⟨3, _⟩ => show win0_2.index (lastPt c') (3 : Fin 4) * 128 + 1 * (y 3).val = (y 3).val; omega
  rw [View.read_apply]
  show (Body.stateAt (F := Ideal) m c (lastPt c').val (lastPt c').isLt).1 ((cfg0.win 2).xinj (grid0.coords (lastPt c')) y)
    = outArr m c (((cfg0.win 2).blk (lastPt c')).view.emb y)
  rw [e1, e2, outArr_ix4]
  exact out_last m c c' _ _ _

/-- An index of the output array is in point `t`'s block iff each coordinate is in the block's range on its axis. -/
theorem mem_blk (t : Fin cfg0.N) (i : S2x3x8x128.Idx) :
    i ∈ ((cfg0.win 2).blk t).view.set ↔ ∀ a : Fin 4, win0_2.index t a * S1x3x8x128.size a ≤ (i a).val
      ∧ (i a).val < win0_2.index t a * S1x3x8x128.size a + S1x3x8x128.size a := by
  show i ∈ ((View.whole main_v4).slice (win0_2.rect t)).set ↔ _
  rw [View.set_slice_whole, Rect.mem_set_unit]
  exact Iff.rfl

/-- Every index of the output array is in the block of its core's last point, which is written back. -/
theorem cover (i : S2x3x8x128.Idx) :
    ∃ t : Fin cfg0.N, (cfg0.win 2).flush t = true ∧ i ∈ ((cfg0.win 2).blk t).view.set := by
  have h0 : (i 0).val < 2 := (i 0).isLt
  have h1 : (i 1).val < 3 := (i 1).isLt
  have h2 : (i 2).val < 8 := (i 2).isLt
  have h3 : (i 3).val < 128 := (i 3).isLt
  refine ⟨lastPt ⟨(i 0).val, h0⟩, (flush0_2 _).mpr (by show ((i 0).val * 8 + 7) % 8 = 7; omega), ?_⟩
  obtain ⟨i0, i1, i2, i3⟩ := out_index (lastPt ⟨(i 0).val, h0⟩)
  rw [mem_blk]
  intro a
  match a with
  | ⟨0, _⟩ =>
    show win0_2.index (lastPt ⟨(i 0).val, h0⟩) (0 : Fin 4) * 1 ≤ (i 0).val
      ∧ (i 0).val < win0_2.index (lastPt ⟨(i 0).val, h0⟩) (0 : Fin 4) * 1 + 1
    rw [i0]; show ((i 0).val * 8 + 7) / 8 * 1 ≤ (i 0).val ∧ (i 0).val < ((i 0).val * 8 + 7) / 8 * 1 + 1; omega
  | ⟨1, _⟩ =>
    show win0_2.index (lastPt ⟨(i 0).val, h0⟩) (1 : Fin 4) * 3 ≤ (i 1).val
      ∧ (i 1).val < win0_2.index (lastPt ⟨(i 0).val, h0⟩) (1 : Fin 4) * 3 + 3
    omega
  | ⟨2, _⟩ =>
    show win0_2.index (lastPt ⟨(i 0).val, h0⟩) (2 : Fin 4) * 8 ≤ (i 2).val
      ∧ (i 2).val < win0_2.index (lastPt ⟨(i 0).val, h0⟩) (2 : Fin 4) * 8 + 8
    omega
  | ⟨3, _⟩ =>
    show win0_2.index (lastPt ⟨(i 0).val, h0⟩) (3 : Fin 4) * 128 ≤ (i 3).val
      ∧ (i 3).val < win0_2.index (lastPt ⟨(i 0).val, h0⟩) (3 : Fin 4) * 128 + 128
    omega

/-- The output array after the run. -/
theorem final (c : Dev nD) : (Body.dats (F := Ideal) m 0 c).arrAt 2 cfg0.N = outArr m c :=
  (Body.dats (F := Ideal) m 0 c).arrAt_eq_of_cover 2 (outArr m c) (flushed_eq m c) cover

/-! ## The host operations after the region -/

/-- The seventeen host operations after the region, run from any buffer contents `W`: the final scalar is the shared
    scalar arithmetic of the three components of the host's sum of the output array. -/
theorem tail_after (W : Valuation τ sig (Elt Ideal)) :
    StableHlo.after (hostOps1 (F := Ideal)) W (Proc.devRef .tc main_v17)
      = Nmse.tail Gen.slices_S3_S1_0 Gen.slices_S3_S1_1 Gen.slices_S3_S1_2 Gen.shapeCasts_S1_S_
          (Host.reduceAdd (F := Ideal) (W (Proc.devRef .tc main_v4)) (constant (F := Ideal) S_ .f32 0x00000000#32)
            reducesTo_S2x3x8x128_S3_d0_2_3 h_S_) := by
  after_results
  rfl

/-- The host's sum of the output array over axes 0, 2 and 3 is the three totals: component `k` adds, over the two cores, the
    eight sublanes and the 128 lanes, the sum over the steps and the row groups, which is the kernel's bracketing of the
    total of summand `k`. -/
theorem reduce_outArr (c : Dev nD) :
    Host.reduceAdd (F := Ideal) (outArr m c) (constant (F := Ideal) S_ .f32 0x00000000#32) reducesTo_S2x3x8x128_S3_d0_2_3 h_S_
      = Nmse.sums (argP m c) (argT m c) := by
  funext j
  obtain ⟨k, rfl⟩ : ∃ k : Fin 3, j = ix1 k := ⟨j 0, eq_ix1 j⟩
  rw [hostReduceAdd_apply, hostReduce_apply]
  simp only [outArr_ix4]
  unfold outEntry
  rw [Nmse.kernel_sum (Nmse.term (argP m c) (argT m c) k.val), constant_apply, Ideal.ofBits_zero_f32, zero_add]
  rfl

/-- The final scalar after the host operations: `Nmse.result` of the two argument arrays. -/
theorem tail_eq (c : Dev nD) :
    Pipeline.afterTail₀ cfgs (Body.dats (F := Ideal) m) 0 (V0 m) [hostOps1] c main_v17
      = Nmse.result Gen.shapeCasts_S2048x4096_S8388608 Gen.shapeCasts_S8388608_S65536x128 Gen.slices_S3_S1_0 Gen.slices_S3_S1_1 Gen.slices_S3_S1_2 Gen.shapeCasts_S1_S_
          (m ((c.tc : Thread nD τ).loc main_arg0)) (m ((c.tc : Thread nD τ).loc main_arg1)) := by
  unfold Pipeline.afterTail₀
  show StableHlo.after hostOps1
      (Pipeline.withArrays spec0 c (V0 m c) fun w => (Body.dats (F := Ideal) m 0 c).arrAt w cfg0.N)
      (Proc.devRef .tc main_v17) = _
  rw [tail_after,
    show Pipeline.withArrays spec0 c (V0 m c) (fun w => (Body.dats (F := Ideal) m 0 c).arrAt w cfg0.N)
        (Proc.devRef .tc main_v4) = outArr m c from
      (Pipeline.withArrays_arr spec0 launch0.win.arr_inj c _ _ 2).trans (final m c),
    reduce_outArr]
  rfl

/-- The kernel program's run at the ideal instance: it terminates with its result at `Nmse.result` of the argument arrays, the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17)
          = Nmse.result Gen.shapeCasts_S2048x4096_S8388608 Gen.shapeCasts_S8388608_S65536x128 Gen.slices_S3_S1_0 Gen.slices_S3_S1_1 Gen.slices_S3_S1_2 Gen.shapeCasts_S1_S_
              (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v17 (Pipeline.mem_restRefs_of main_v17 (by decide) (by decide))).trans (tail_eq m c),
        ((h c).2 main_arg0 (Pipeline.mem_restRefs_of main_arg0 (by decide) (by decide))).trans (W_main_arg0 m (Body.dats m) c),
        ((h c).2 main_arg1 (Pipeline.mem_restRefs_of main_arg1 (by decide) (by decide))).trans (W_main_arg1 m (Body.dats m) c)⟩)
    (Body.run_main (F := Ideal) m ρ)

end Cert.KernelIdeal.KernelValue

end
-- ==== Proof.RefValueBlocks.lean ====
/-
  The reference's two operands as the region finds them, and a block of either read at an entry.

  Each argument f32[2048, 4096] is flattened and cut into 65536 rows of 128 lanes before the region; grid point t (of 32, in
  order: core * 16 + step) reads rows [2048 t, 2048 t + 2048) of both, so row r, lane l of its block is row 2048 t + r,
  lane l of the array.
-/
import proofs.«151391_g2000509514383055_pallasbulk_1306_2_alg».proof.Proof.Gen.ReferenceIdeal.Frame
import proofs.«151391_g2000509514383055_pallasbulk_1306_2_alg».proof.Proof.Spec
import Idealize.ShloMosaic.Lib.Pipeline.Value
import Idealize.ShloMosaic.Lib.StableHlo.Run
import Idealize.ShloMosaic.Lib.Tactic

set_option maxRecDepth 16384

noncomputable section

namespace Cert.ReferenceIdeal.RefValue

open Idealize.ShloMosaic Idealize.ShloMosaic.TcCoe Idealize.SL.Sem
open Idealize.ShloMosaic.ValueIdx
open Idealize.ShloMosaic.Pipeline (Dat)
open Cert.ReferenceIdeal Cert.ReferenceIdeal.Gen
open scoped BigOperators

variable (m : (ℓ : Loc nD τ sig) → Buf (Elt Ideal) ℓ)

/-- The two argument arrays laid out as 65536 rows of 128 lanes. -/
abbrev Parr (c : Dev nD) : FVec Ideal Nmse.SRows .f32 :=
  Nmse.rows shapeCasts_S2048x4096_S8388608 shapeCasts_S8388608_S65536x128 (m ((c.tc : Thread nD τ).loc main_arg0))
abbrev Tarr (c : Dev nD) : FVec Ideal Nmse.SRows .f32 :=
  Nmse.rows shapeCasts_S2048x4096_S8388608 shapeCasts_S8388608_S65536x128 (m ((c.tc : Thread nD τ).loc main_arg1))

/-- What the region finds in its first operand: the first argument, flattened and cut into rows. -/
theorem V_v2 (c : Dev nD) : (V m c main_v2 : FVec Ideal S65536x128 .f32) = Parr m c := by
  show StableHlo.after hostOps0 (fun b => m (c, b)) (Proc.devRef .tc main_v2) = _
  after_results
  rfl

theorem V_v3 (c : Dev nD) : (V m c main_v3 : FVec Ideal S65536x128 .f32) = Tarr m c := by
  show StableHlo.after hostOps0 (fun b => m (c, b)) (Proc.devRef .tc main_v3) = _
  after_results
  rfl

/-- The two input windows' block index at point t is t itself on the row axis and 0 on the lane axis. -/
theorem idx_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- Row r of the block read at point t is row t * 2048 + r of the array. -/
def blockRow (t : Fin cfg0.N) (r : Fin 2048) : Fin 65536 :=
  ⟨t.val * 2048 + r.val, by have := t.isLt; have hN : cfg0.N = 32 := N_0; omega⟩

theorem iblk0_apply (c : Dev nD) (t : Fin cfg0.N) (r : Fin 2048) (l : Fin 128) :
    (iblk m c 0 t : Vec Ideal S2048x128 .f32) (ix2 r l) = Parr m c (ix2 (blockRow t r) l) := by
  rw [← V_v2]
  unfold iblk
  rw [View.read_apply]
  show V m c main_v2 _ = V m c main_v2 _
  congr 1
  funext a
  apply Fin.ext
  match a with
  | ⟨0, _⟩ => show win0_0.index t 0 * 2048 + 1 * r.val = t.val * 2048 + r.val; rw [(idx_facts t).1]; omega
  | ⟨1, _⟩ => show win0_0.index t 1 * 128 + 1 * l.val = l.val; rw [(idx_facts t).2.1]; omega

theorem iblk1_apply (c : Dev nD) (t : Fin cfg0.N) (r : Fin 2048) (l : Fin 128) :
    (iblk m c 1 t : Vec Ideal S2048x128 .f32) (ix2 r l) = Tarr m c (ix2 (blockRow t r) l) := by
  rw [← V_v3]
  unfold iblk
  rw [View.read_apply]
  show V m c main_v3 _ = V m c main_v3 _
  congr 1
  funext a
  apply Fin.ext
  match a with
  | ⟨0, _⟩ => show win0_1.index t 0 * 2048 + 1 * r.val = t.val * 2048 + r.val; rw [(idx_facts t).2.2.1]; omega
  | ⟨1, _⟩ => show win0_1.index t 1 * 128 + 1 * l.val = l.val; rw [(idx_facts t).2.2.2]; omega

end Cert.ReferenceIdeal.RefValue

end
-- ==== Proof.RefValuePieces.lean ====
/-
  What each of the three kinds of grid step leaves in the three accumulators and in the output block, as functions of the
  step's two input blocks and of what the step before left, at any float instance; then the same read at an entry over the
  extended reals.

  A core's first step zeroes each accumulator and adds its term (zero + term); every later step adds its term to what the
  step before left; the last step of a core also writes, into component k of its output block and at every sublane and lane,
  the total over all 2048 x 128 entries of accumulator k as that step leaves it. Over the extended reals the terms at an
  entry are (p - t)^2, t and t^2 of the two blocks' entries, and the total is the plain sum over rows and lanes.
-/
import proofs.«151391_g2000509514383055_pallasbulk_1306_2_alg».proof.Proof.Gen.ReferenceIdeal.Frame
import Idealize.ShloMosaic.Lib.Pipeline.Value
import Idealize.ShloMosaic.Lib.ValueIdx
import Idealize.ShloMosaic.Lib.Tactic
import Idealize.ShloMosaic.PureOps.Ideal.Laws
import Mathlib.Algebra.BigOperators.Group.Finset.Basic

set_option maxRecDepth 16384

noncomputable section

namespace Cert.ReferenceIdeal.RefValue

open Idealize.ShloMosaic Idealize.ShloMosaic.TcCoe Idealize.SL.Sem
open Idealize.ShloMosaic.ValueIdx
open Idealize.ShloMosaic.Pipeline (Dat)
open Cert.ReferenceIdeal Cert.ReferenceIdeal.Gen
open scoped BigOperators
open Idealize.ShloMosaic.Tactic

variable {F : FTy → Type} [FloatOps F]

/-- The offsets of a load or store of a whole 2048 x 128 buffer are zero. -/
theorem hz : (![0, 0] : Fin 2 → Nat) = fun _ => 0 := funext fun a => by fin_cases a <;> rfl

/-- At a core's first step each accumulator is zeroed and the step's term added: it ends at zero plus the term. -/
theorem scratch_A_0 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : cond0_0 i) (hc1 : ¬cond0_1 i)
    (x0 x1 : Vec F S2048x128 .f32) :
    sout0_A_0 c i a2 h2 a3 h3 a4 h4 a5 h5 a6 h6 a7 h7 hc0 hc1 x0 x1 = k0_pay5 x0 x1 (k0_pay1 (F := F)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S2048x128) hz, View.readCov_unit_zero (S := S2048x128) _ hz]
  simp only [View.readAt_eq_ld, h2.read_unread, h3.read_unread, View.ld_unit_zero (S := S2048x128) hz]

/-- At a core's first step each accumulator is zeroed and the step's term added: it ends at zero plus the term. -/
theorem scratch_A_1 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : cond0_0 i) (hc1 : ¬cond0_1 i)
    (x0 x1 : Vec F S2048x128 .f32) :
    sout0_A_1 c i a2 h2 a3 h3 a4 h4 a5 h5 a6 h6 a7 h7 hc0 hc1 x0 x1 = k0_pay6 x1 (k0_pay2 (F := F)) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S2048x128) hz, View.readCov_unit_zero (S := S2048x128) _ hz]
  simp only [View.readAt_eq_ld, h2.read_unread, h3.read_unread, View.ld_unit_zero (S := S2048x128) hz]

/-- At a core's first step each accumulator is zeroed and the step's term added: it ends at zero plus the term. -/
theorem scratch_A_2 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : cond0_0 i) (hc1 : ¬cond0_1 i)
    (x0 x1 : Vec F S2048x128 .f32) :
    sout0_A_2 c i a2 h2 a3 h3 a4 h4 a5 h5 a6 h6 a7 h7 hc0 hc1 x0 x1 = k0_pay7 x1 (k0_pay3 (F := F)) := by
  unfold sout0_A_2
  rw [View.read_writes_eq_canon _ _ _ (scover0_A_2 c i a2 h2 a3 h3 a4 h4 a5 h5 a6 h6 a7 h7 hc0 hc1 x0 x1)]
  unfold kernelRun0_A
  dsimp only
  sl_unfold_words
  rw [View.canon_cons_unit_zero (S := S2048x128) hz, View.readCov_unit_zero (S := S2048x128) _ hz]
  simp only [View.readAt_eq_ld, h2.read_unread, h3.read_unread, View.ld_unit_zero (S := S2048x128) hz]

/-- At a middle step the accumulator ends at what the step before left plus the step's term. -/
theorem scratch_B_0 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : ¬cond0_1 i)
    (x0 x1 xs0 xs1 xs2 : Vec F S2048x128 .f32) :
    sout0_B_0 c i a2 h2 a3 h3 a4 h4 a5 h5 a6 h6 a7 h7 hc0 hc1 x0 x1 xs0 xs1 xs2 = k0_pay5 x0 x1 xs0 := by
  unfold sout0_B_0
  rw [View.read_writes_eq_canon _ _ _ (scover0_B_0 c i a2 h2 a3 h3 a4 h4 a5 h5 a6 h6 a7 h7 hc0 hc1 x0 x1 xs0 xs1 xs2)]
  unfold kernelRun0_B
  dsimp only
  sl_unfold_words
  rw [View.canon_unit_zero hz]
  simp only [View.readAt_eq_ld, h2.read_unread, h3.read_unread, h5.read_unread, h6.read_unread, h7.read_unread, View.ld_unit_zero (S := S2048x128) hz]

/-- At a middle step the accumulator ends at what the step before left plus the step's term. -/
theorem scratch_B_1 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : ¬cond0_1 i)
    (x0 x1 xs0 xs1 xs2 : Vec F S2048x128 .f32) :
    sout0_B_1 c i a2 h2 a3 h3 a4 h4 a5 h5 a6 h6 a7 h7 hc0 hc1 x0 x1 xs0 xs1 xs2 = k0_pay6 x1 xs1 := by
  unfold sout0_B_1
  rw [View.read_writes_eq_canon _ _ _ (scover0_B_1 c i a2 h2 a3 h3 a4 h4 a5 h5 a6 h6 a7 h7 hc0 hc1 x0 x1 xs0 xs1 xs2)]
  unfold kernelRun0_B
  dsimp only
  sl_unfold_words
  rw [View.canon_unit_zero hz]
  simp only [View.readAt_eq_ld, h2.read_unread, h3.read_unread, h5.read_unread, h6.read_unread, h7.read_unread, View.ld_unit_zero (S := S2048x128) hz]

/-- At a middle step the accumulator ends at what the step before left plus the step's term. -/
theorem scratch_B_2 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : ¬cond0_1 i)
    (x0 x1 xs0 xs1 xs2 : Vec F S2048x128 .f32) :
    sout0_B_2 c i a2 h2 a3 h3 a4 h4 a5 h5 a6 h6 a7 h7 hc0 hc1 x0 x1 xs0 xs1 xs2 = k0_pay7 x1 xs2 := by
  unfold sout0_B_2
  rw [View.read_writes_eq_canon _ _ _ (scover0_B_2 c i a2 h2 a3 h3 a4 h4 a5 h5 a6 h6 a7 h7 hc0 hc1 x0 x1 xs0 xs1 xs2)]
  unfold kernelRun0_B
  dsimp only
  sl_unfold_words
  rw [View.canon_unit_zero hz]
  simp only [View.readAt_eq_ld, h2.read_unread, h3.read_unread, h5.read_unread, h6.read_unread, h7.read_unread, View.ld_unit_zero (S := S2048x128) hz]

/-- At a core's last step the accumulator ends, as at a middle step, at what the step before left plus the step's term. -/
theorem scratch_C_0 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : cond0_1 i)
    (x0 x1 xs0 xs1 xs2 : Vec F S2048x128 .f32) :
    sout0_C_0 c i a2 h2 a3 h3 a4 h4 a5 h5 a6 h6 a7 h7 hc0 hc1 x0 x1 xs0 xs1 xs2 = k0_pay5 x0 x1 xs0 := by
  unfold sout0_C_0
  rw [View.read_writes_eq_canon _ _ _ (scover0_C_0 c i a2 h2 a3 h3 a4 h4 a5 h5 a6 h6 a7 h7 hc0 hc1 x0 x1 xs0 xs1 xs2)]
  unfold kernelRun0_C
  dsimp only
  sl_unfold_words
  rw [View.canon_unit_zero hz]
  simp only [View.readAt_eq_ld, h2.read_unread, h3.read_unread, h5.read_unread, h6.read_unread, h7.read_unread, View.ld_unit_zero (S := S2048x128) hz]

/-- At a core's last step the accumulator ends, as at a middle step, at what the step before left plus the step's term. -/
theorem scratch_C_1 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : cond0_1 i)
    (x0 x1 xs0 xs1 xs2 : Vec F S2048x128 .f32) :
    sout0_C_1 c i a2 h2 a3 h3 a4 h4 a5 h5 a6 h6 a7 h7 hc0 hc1 x0 x1 xs0 xs1 xs2 = k0_pay6 x1 xs1 := by
  unfold sout0_C_1
  rw [View.read_writes_eq_canon _ _ _ (scover0_C_1 c i a2 h2 a3 h3 a4 h4 a5 h5 a6 h6 a7 h7 hc0 hc1 x0 x1 xs0 xs1 xs2)]
  unfold kernelRun0_C
  dsimp only
  sl_unfold_words
  rw [View.canon_unit_zero hz]
  simp only [View.readAt_eq_ld, h2.read_unread, h3.read_unread, h5.read_unread, h6.read_unread, h7.read_unread, View.ld_unit_zero (S := S2048x128) hz]

/-- At a core's last step the accumulator ends, as at a middle step, at what the step before left plus the step's term. -/
theorem scratch_C_2 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : cond0_1 i)
    (x0 x1 xs0 xs1 xs2 : Vec F S2048x128 .f32) :
    sout0_C_2 c i a2 h2 a3 h3 a4 h4 a5 h5 a6 h6 a7 h7 hc0 hc1 x0 x1 xs0 xs1 xs2 = k0_pay7 x1 xs2 := by
  unfold sout0_C_2
  rw [View.read_writes_eq_canon _ _ _ (scover0_C_2 c i a2 h2 a3 h3 a4 h4 a5 h5 a6 h6 a7 h7 hc0 hc1 x0 x1 xs0 xs1 xs2)]
  unfold kernelRun0_C
  dsimp only
  sl_unfold_words
  rw [View.canon_unit_zero hz]
  simp only [View.readAt_eq_ld, h2.read_unread, h3.read_unread, h5.read_unread, h6.read_unread, h7.read_unread, View.ld_unit_zero (S := S2048x128) hz]

/-- The total of a 2048 x 128 block as the kernel's last step computes it: the block under a leading unit axis, reduced over
    its two long axes, and the one entry left extracted. -/
def blockTotal (v : Vec F S2048x128 .f32) : F .f32 :=
  extractAt ![0, 0, 0] (shapeCast S1x1x1 (multiReduction .add [1, 2] S1 (shapeCast S1x2048x128 v shapeCasts_S2048x128_S1x2048x128) 0x00000000#32 reduces_S1x2048x128_S1 (.inl rfl) rfl) shapeCasts_S1_S1x1x1) inpos_S1x1x1_p0_0_0

/-- One of three values by a component number 0, 1 or 2. -/
def sel3 {α : Type} (k : ℕ) (a b c : α) : α := if k = 0 then a else if k = 1 then b else c

/-- At a core's last step the output block holds, in component k and at every sublane and lane, the total of accumulator k
    as the step leaves it. -/
theorem out_C (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : cond0_1 i)
    (x0 x1 xs0 xs1 xs2 : Vec F S2048x128 .f32) :
    out0_C_2 c i a2 h2 a3 h3 a4 h4 a5 h5 a6 h6 a7 h7 hc0 hc1 x0 x1 xs0 xs1 xs2
      = fun y => sel3 (y 1).val (blockTotal (k0_pay5 x0 x1 xs0)) (blockTotal (k0_pay6 x1 xs1)) (blockTotal (k0_pay7 x1 xs2)) := by
  unfold out0_C_2
  rw [View.read_writes_eq_canon _ _ _ (cover0_C_2 c i a2 h2 a3 h3 a4 h4 a5 h5 a6 h6 a7 h7 hc0 hc1 x0 x1 xs0 xs1 xs2)]
  funext y
  refine View.canon_apply_of_pieces (fun y : S1x3x8x128.Idx => sel3 (y 1).val (blockTotal (k0_pay5 x0 x1 xs0)) (blockTotal (k0_pay6 x1 xs1)) (blockTotal (k0_pay7 x1 xs2))) _ ?_ y (cover0_C_2 c i a2 h2 a3 h3 a4 h4 a5 h5 a6 h6 a7 h7 hc0 hc1 x0 x1 xs0 xs1 xs2 y)
  unfold kernelRun0_C
  dsimp only
  sl_unfold_words
  intro p hp x
  simp only [List.mem_cons, List.not_mem_nil, or_false] at hp
  rcases hp with rfl | rfl | rfl
  · have e : ((Rect.unit (s := S1x3x8x128) ![0, 2, 0, 0] ![1, 1, 8, 128] inb_S1x3x8x128_S1x1x8x128_0_2_0_0).emb x 1).val = 2 := by
      have h1 : (x 1).val < 1 := (x 1).isLt
      show 2 + 1 * (x 1).val = 2
      omega
    refine Eq.trans ?_ (congrArg (fun k => sel3 k (blockTotal (k0_pay5 x0 x1 xs0)) (blockTotal (k0_pay6 x1 xs1)) (blockTotal (k0_pay7 x1 xs2))) e.symm)
    simp only [View.readCov_unit_zero (S := S2048x128) _ hz, View.readAt_eq_ld, h3.read_unread, h7.read_unread, View.ld_unit_zero (S := S2048x128) hz]
    rfl
  · have e : ((Rect.unit (s := S1x3x8x128) ![0, 1, 0, 0] ![1, 1, 8, 128] inb_S1x3x8x128_S1x1x8x128_0_1_0_0).emb x 1).val = 1 := by
      have h1 : (x 1).val < 1 := (x 1).isLt
      show 1 + 1 * (x 1).val = 1
      omega
    refine Eq.trans ?_ (congrArg (fun k => sel3 k (blockTotal (k0_pay5 x0 x1 xs0)) (blockTotal (k0_pay6 x1 xs1)) (blockTotal (k0_pay7 x1 xs2))) e.symm)
    simp only [View.readCov_unit_zero (S := S2048x128) _ hz, View.readAt_eq_ld, h3.read_unread, h6.read_unread, View.ld_unit_zero (S := S2048x128) hz]
    rfl
  · have e : ((Rect.unit (s := S1x3x8x128) ![0, 0, 0, 0] ![1, 1, 8, 128] inb_S1x3x8x128_S1x1x8x128_0_0_0_0).emb x 1).val = 0 := by
      have h1 : (x 1).val < 1 := (x 1).isLt
      show 0 + 1 * (x 1).val = 0
      omega
    refine Eq.trans ?_ (congrArg (fun k => sel3 k (blockTotal (k0_pay5 x0 x1 xs0)) (blockTotal (k0_pay6 x1 xs1)) (blockTotal (k0_pay7 x1 xs2))) e.symm)
    simp only [View.readCov_unit_zero (S := S2048x128) _ hz, View.readAt_eq_ld, h2.read_unread, h3.read_unread, h5.read_unread, View.ld_unit_zero (S := S2048x128) hz]
    rfl

/-! ## Over the extended reals, at an entry -/

/-- The zeroed accumulators read zero everywhere. -/
theorem pay1_apply (j : S2048x128.Idx) : (k0_pay1 (F := Ideal)) j = 0 := by
  unfold k0_pay1
  simp only [shapeCast_self]
  exact Ideal.ofBits_zero_f32
theorem pay2_apply (j : S2048x128.Idx) : (k0_pay2 (F := Ideal)) j = 0 := by
  unfold k0_pay2
  simp only [shapeCast_self]
  exact Ideal.ofBits_zero_f32
theorem pay3_apply (j : S2048x128.Idx) : (k0_pay3 (F := Ideal)) j = 0 := by
  unfold k0_pay3
  simp only [shapeCast_self]
  exact Ideal.ofBits_zero_f32

/-- One step's update of the three accumulators at an entry: the squared difference, the target, the target's square added. -/
theorem pay5_apply (x0 x1 acc : Vec Ideal S2048x128 .f32) (j : S2048x128.Idx) :
    k0_pay5 x0 x1 acc j = acc j + (x0 j - x1 j) * (x0 j - x1 j) := by
  unfold k0_pay5 k0_pay4
  simp only [shapeCast_self]
  rfl
theorem pay6_apply (x1 acc : Vec Ideal S2048x128 .f32) (j : S2048x128.Idx) :
    k0_pay6 x1 acc j = acc j + x1 j := by
  unfold k0_pay6 k0_pay4
  simp only [shapeCast_self]
  rfl
theorem pay7_apply (x1 acc : Vec Ideal S2048x128 .f32) (j : S2048x128.Idx) :
    k0_pay7 x1 acc j = acc j + x1 j * x1 j := by
  unfold k0_pay7 k0_pay4
  simp only [shapeCast_self]
  rfl

/-- At the ideal instance the block total is the plain sum over the block's rows and lanes. -/
theorem blockTotal_eq (v : Vec Ideal S2048x128 .f32) : blockTotal v = ∑ r : Fin 2048, ∑ l : Fin 128, v (ix2 r l) := by
  unfold blockTotal extractAt
  show multiReduction (F := Ideal) .add [1, 2] S1 (shapeCast S1x2048x128 v shapeCasts_S2048x128_S1x2048x128) 0x00000000#32 reduces_S1x2048x128_S1 (.inl rfl) rfl _ = _
  refine (Ideal.multiReduction_add_total (shapeCast S1x2048x128 v shapeCasts_S2048x128_S1x2048x128) 0x00000000#32 reduces_S1x2048x128_S1 (fun b => by fin_cases b; rfl) (.inl rfl) rfl _).trans ?_
  rw [← sum_idx2 (n0 := 2048) (n1 := 128) v]
  exact Equiv.sum_comp (Shape.reshapeEquiv shapeCasts_S2048x128_S1x2048x128) v

end Cert.ReferenceIdeal.RefValue

end
-- ==== Proof.RefValueInv.lean ====
/-
  The running sums: what the three accumulators hold after each of the 32 grid points, over the extended reals.

  Grid point n = 16 q + i (core q, step i) adds to accumulator k, at row r and lane l, the term of the two arrays at row
  2048 n + r: (p - t)^2 for k = 0, t for k = 1, t^2 for k = 2. A core's first step starts from zero, every later step from
  what the step before left, so after point 16 q + i the accumulator holds the sum of the terms of points 16 q, …, 16 q + i:
  by induction on the point, the sum over a range growing by one term per step.
-/
import proofs.«151391_g2000509514383055_pallasbulk_1306_2_alg».proof.Proof.RefValueBlocks
import proofs.«151391_g2000509514383055_pallasbulk_1306_2_alg».proof.Proof.RefValuePieces

set_option maxRecDepth 16384

noncomputable section

namespace Cert.ReferenceIdeal.RefValue

open Idealize.ShloMosaic Idealize.ShloMosaic.TcCoe Idealize.SL.Sem
open Idealize.ShloMosaic.ValueIdx
open Idealize.ShloMosaic.Pipeline (Dat)
open Cert.ReferenceIdeal Cert.ReferenceIdeal.Gen
open scoped BigOperators

variable (m : (ℓ : Loc nD τ sig) → Buf (Elt Ideal) ℓ)

/-- The term grid point q adds to accumulator k at row r, lane l of its block (zero past the grid's 32 points): the
    term of the two arrays at row 2048 q + r. -/
def addend (c : Dev nD) (k : ℕ) (q : ℕ) (r : Fin 2048) (l : Fin 128) : EReal :=
  if h : q < 32 then Nmse.term (Parr m c) (Tarr m c) k ⟨q * 2048 + r.val, by have := r.isLt; omega⟩ l else 0

/-- The two blocks of point t under their literal type. -/
abbrev pblk (c : Dev nD) (t : Fin cfg0.N) : Vec Ideal S2048x128 .f32 := iblk m c 0 t
abbrev tblk (c : Dev nD) (t : Fin cfg0.N) : Vec Ideal S2048x128 .f32 := iblk m c 1 t

theorem upd0 (c : Dev nD) (t : Fin cfg0.N) (acc : Vec Ideal S2048x128 .f32) (r : Fin 2048) (l : Fin 128) :
    k0_pay5 (pblk m c t) (tblk m c t) acc (ix2 r l) = acc (ix2 r l) + addend m c 0 t.val r l := by
  have ht : t.val < 32 := lt_of_lt_of_eq t.isLt (show cfg0.N = 32 from N_0)
  refine (pay5_apply (pblk m c t) (tblk m c t) acc (ix2 r l)).trans ?_
  rw [show pblk m c t (ix2 r l) = Parr m c (ix2 (blockRow t r) l) from iblk0_apply m c t r l,
    show tblk m c t (ix2 r l) = Tarr m c (ix2 (blockRow t r) l) from iblk1_apply m c t r l]
  unfold addend
  rw [dif_pos ht]
  rfl

theorem upd1 (c : Dev nD) (t : Fin cfg0.N) (acc : Vec Ideal S2048x128 .f32) (r : Fin 2048) (l : Fin 128) :
    k0_pay6 (tblk m c t) acc (ix2 r l) = acc (ix2 r l) + addend m c 1 t.val r l := by
  have ht : t.val < 32 := lt_of_lt_of_eq t.isLt (show cfg0.N = 32 from N_0)
  refine (pay6_apply (tblk m c t) acc (ix2 r l)).trans ?_
  rw [show tblk m c t (ix2 r l) = Tarr m c (ix2 (blockRow t r) l) from iblk1_apply m c t r l]
  unfold addend
  rw [dif_pos ht]
  rfl

theorem upd2 (c : Dev nD) (t : Fin cfg0.N) (acc : Vec Ideal S2048x128 .f32) (r : Fin 2048) (l : Fin 128) :
    k0_pay7 (tblk m c t) acc (ix2 r l) = acc (ix2 r l) + addend m c 2 t.val r l := by
  have ht : t.val < 32 := lt_of_lt_of_eq t.isLt (show cfg0.N = 32 from N_0)
  refine (pay7_apply (tblk m c t) acc (ix2 r l)).trans ?_
  rw [show tblk m c t (ix2 r l) = Tarr m c (ix2 (blockRow t r) l) from iblk1_apply m c t r l]
  unfold addend
  rw [dif_pos ht]
  rfl

/-- The three accumulators after grid point n, under their literal type. -/
abbrev acc0 (c : Dev nD) (n : ℕ) (hn : n < cfg0.N) : Vec Ideal S2048x128 .f32 := (outsAt0 m c n hn).2.1
abbrev acc1 (c : Dev nD) (n : ℕ) (hn : n < cfg0.N) : Vec Ideal S2048x128 .f32 := (outsAt0 m c n hn).2.2.1
abbrev acc2 (c : Dev nD) (n : ℕ) (hn : n < cfg0.N) : Vec Ideal S2048x128 .f32 := (outsAt0 m c n hn).2.2.2

/-- A core's first step: each accumulator ends at its term. -/
theorem step_A (c : Dev nD) (t : Fin cfg0.N) (h0 : t.val % 16 = 0) (h1 : ¬t.val % 16 = 15) (r : Fin 2048) (l : Fin 128) :
    acc0 m c t.val t.isLt (ix2 r l) = addend m c 0 t.val r l
    ∧ acc1 m c t.val t.isLt (ix2 r l) = addend m c 1 t.val r l
    ∧ acc2 m c t.val t.isLt (ix2 r l) = addend m c 2 t.val r l := by
  unfold acc0 acc1 acc2
  rw [outsAt0_A m c t h0 h1]
  dsimp only
  refine ⟨?_, ?_, ?_⟩
  · refine (congrFun (scratch_A_0 (F := Ideal) c (grid0.coords t) (ms0_0 t) (hs0_0 t) (ms0_1 t) (hs0_1 t) (ms0_2 t) (hs0_2 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t)) (ix2 r l)).trans ?_
    refine (upd0 m c t (k0_pay1 (F := Ideal)) r l).trans ?_
    rw [pay1_apply, zero_add]
  · refine (congrFun (scratch_A_1 (F := Ideal) c (grid0.coords t) (ms0_0 t) (hs0_0 t) (ms0_1 t) (hs0_1 t) (ms0_2 t) (hs0_2 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t)) (ix2 r l)).trans ?_
    refine (upd1 m c t (k0_pay2 (F := Ideal)) r l).trans ?_
    rw [pay2_apply, zero_add]
  · refine (congrFun (scratch_A_2 (F := Ideal) c (grid0.coords t) (ms0_0 t) (hs0_0 t) (ms0_1 t) (hs0_1 t) (ms0_2 t) (hs0_2 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t)) (ix2 r l)).trans ?_
    refine (upd2 m c t (k0_pay3 (F := Ideal)) r l).trans ?_
    rw [pay3_apply, zero_add]

/-- A middle step: each accumulator ends at what the step before left plus its term. -/
theorem step_B (c : Dev nD) (t : Fin cfg0.N) (h0 : ¬t.val % 16 = 0) (h1 : ¬t.val % 16 = 15) (r : Fin 2048) (l : Fin 128) :
    acc0 m c t.val t.isLt (ix2 r l) = acc0 m c (t.val - 1) (Nat.lt_of_le_of_lt (Nat.sub_le _ _) t.isLt) (ix2 r l) + addend m c 0 t.val r l
    ∧ acc1 m c t.val t.isLt (ix2 r l) = acc1 m c (t.val - 1) (Nat.lt_of_le_of_lt (Nat.sub_le _ _) t.isLt) (ix2 r l) + addend m c 1 t.val r l
    ∧ acc2 m c t.val t.isLt (ix2 r l) = acc2 m c (t.val - 1) (Nat.lt_of_le_of_lt (Nat.sub_le _ _) t.isLt) (ix2 r l) + addend m c 2 t.val r l := by
  unfold acc0 acc1 acc2
  rw [outsAt0_B m c t h0 h1]
  dsimp only
  refine ⟨?_, ?_, ?_⟩
  · refine (congrFun (scratch_B_0 (F := Ideal) c (grid0.coords t) (ms0_0 t) (hs0_0 t) (ms0_1 t) (hs0_1 t) (ms0_2 t) (hs0_2 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r l)).trans ?_
    exact upd0 m c t (outsAt0 m c (t.val - 1) (Nat.lt_of_le_of_lt (Nat.sub_le _ _) t.isLt)).2.1 r l
  · refine (congrFun (scratch_B_1 (F := Ideal) c (grid0.coords t) (ms0_0 t) (hs0_0 t) (ms0_1 t) (hs0_1 t) (ms0_2 t) (hs0_2 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r l)).trans ?_
    exact upd1 m c t (outsAt0 m c (t.val - 1) (Nat.lt_of_le_of_lt (Nat.sub_le _ _) t.isLt)).2.2.1 r l
  · refine (congrFun (scratch_B_2 (F := Ideal) c (grid0.coords t) (ms0_0 t) (hs0_0 t) (ms0_1 t) (hs0_1 t) (ms0_2 t) (hs0_2 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r l)).trans ?_
    exact upd2 m c t (outsAt0 m c (t.val - 1) (Nat.lt_of_le_of_lt (Nat.sub_le _ _) t.isLt)).2.2.2 r l

/-- A core's last step: the accumulators as at a middle step. -/
theorem step_C (c : Dev nD) (t : Fin cfg0.N) (h0 : ¬t.val % 16 = 0) (h1 : t.val % 16 = 15) (r : Fin 2048) (l : Fin 128) :
    acc0 m c t.val t.isLt (ix2 r l) = acc0 m c (t.val - 1) (Nat.lt_of_le_of_lt (Nat.sub_le _ _) t.isLt) (ix2 r l) + addend m c 0 t.val r l
    ∧ acc1 m c t.val t.isLt (ix2 r l) = acc1 m c (t.val - 1) (Nat.lt_of_le_of_lt (Nat.sub_le _ _) t.isLt) (ix2 r l) + addend m c 1 t.val r l
    ∧ acc2 m c t.val t.isLt (ix2 r l) = acc2 m c (t.val - 1) (Nat.lt_of_le_of_lt (Nat.sub_le _ _) t.isLt) (ix2 r l) + addend m c 2 t.val r l := by
  unfold acc0 acc1 acc2
  rw [outsAt0_C m c t h0 h1]
  dsimp only
  refine ⟨?_, ?_, ?_⟩
  · refine (congrFun (scratch_C_0 (F := Ideal) c (grid0.coords t) (ms0_0 t) (hs0_0 t) (ms0_1 t) (hs0_1 t) (ms0_2 t) (hs0_2 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r l)).trans ?_
    exact upd0 m c t (outsAt0 m c (t.val - 1) (Nat.lt_of_le_of_lt (Nat.sub_le _ _) t.isLt)).2.1 r l
  · refine (congrFun (scratch_C_1 (F := Ideal) c (grid0.coords t) (ms0_0 t) (hs0_0 t) (ms0_1 t) (hs0_1 t) (ms0_2 t) (hs0_2 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r l)).trans ?_
    exact upd1 m c t (outsAt0 m c (t.val - 1) (Nat.lt_of_le_of_lt (Nat.sub_le _ _) t.isLt)).2.2.1 r l
  · refine (congrFun (scratch_C_2 (F := Ideal) c (grid0.coords t) (ms0_0 t) (hs0_0 t) (ms0_1 t) (hs0_1 t) (ms0_2 t) (hs0_2 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r l)).trans ?_
    exact upd2 m c t (outsAt0 m c (t.val - 1) (Nat.lt_of_le_of_lt (Nat.sub_le _ _) t.isLt)).2.2.2 r l

/-- The accumulators do not depend on how the point's number is written. -/
theorem acc_congr (c : Dev nD) (a b : ℕ) (ha : a < cfg0.N) (hb : b < cfg0.N) (e : a = b) :
    acc0 m c a ha = acc0 m c b hb ∧ acc1 m c a ha = acc1 m c b hb ∧ acc2 m c a ha = acc2 m c b hb := by
  subst e; exact ⟨rfl, rfl, rfl⟩

/-- THE RUNNING SUMS. After grid point n = 16 q + i each accumulator holds, at row r and lane l, the sum of its terms at
    the points 16 q, …, 16 q + i. -/
theorem acc_eq (c : Dev nD) : ∀ (n : ℕ) (hn : n < cfg0.N) (r : Fin 2048) (l : Fin 128),
    acc0 m c n hn (ix2 r l) = ∑ s ∈ Finset.range (n % 16 + 1), addend m c 0 (n - n % 16 + s) r l
    ∧ acc1 m c n hn (ix2 r l) = ∑ s ∈ Finset.range (n % 16 + 1), addend m c 1 (n - n % 16 + s) r l
    ∧ acc2 m c n hn (ix2 r l) = ∑ s ∈ Finset.range (n % 16 + 1), addend m c 2 (n - n % 16 + s) r l
  | 0, hn, r, l => by
    have h := step_A m c ⟨0, hn⟩ (Nat.zero_mod 16) (show ¬(0 : ℕ) % 16 = 15 by decide) r l
    simp only [Nat.zero_mod, Nat.zero_add, Finset.sum_range_one, Nat.sub_zero]
    exact h
  | n + 1, hn, r, l => by
    have hN : n + 1 < 32 := lt_of_lt_of_eq hn (show cfg0.N = 32 from N_0)
    by_cases h0 : (n + 1) % 16 = 0
    · have h := step_A m c ⟨n + 1, hn⟩ h0 (by show ¬(n + 1) % 16 = 15; omega) r l
      rw [h0]
      simp only [Nat.zero_add, Finset.sum_range_one, Nat.sub_zero, Nat.add_zero]
      exact h
    · have ih := acc_eq c n (Nat.lt_of_succ_lt hn) r l
      have hm : (n + 1) % 16 = n % 16 + 1 := by omega
      have hb : n + 1 - (n % 16 + 1) = n - n % 16 := by omega
      have hs : n - n % 16 + (n % 16 + 1) = n + 1 := by omega
      have hc := acc_congr m c (n + 1 - 1) n (Nat.lt_of_le_of_lt (Nat.sub_le _ _) hn) (Nat.lt_of_succ_lt hn) (by omega)
      have hstep : acc0 m c (n + 1) hn (ix2 r l) = acc0 m c n (Nat.lt_of_succ_lt hn) (ix2 r l) + addend m c 0 (n + 1) r l
          ∧ acc1 m c (n + 1) hn (ix2 r l) = acc1 m c n (Nat.lt_of_succ_lt hn) (ix2 r l) + addend m c 1 (n + 1) r l
          ∧ acc2 m c (n + 1) hn (ix2 r l) = acc2 m c n (Nat.lt_of_succ_lt hn) (ix2 r l) + addend m c 2 (n + 1) r l := by
        rw [← hc.1, ← hc.2.1, ← hc.2.2]
        by_cases h1 : (n + 1) % 16 = 15
        · exact step_C m c ⟨n + 1, hn⟩ h0 h1 r l
        · exact step_B m c ⟨n + 1, hn⟩ h0 h1 r l
      rw [hm, Finset.sum_range_succ _ (n % 16 + 1), Finset.sum_range_succ _ (n % 16 + 1), Finset.sum_range_succ _ (n % 16 + 1), hb, hs,
        hstep.1, hstep.2.1, hstep.2.2, ih.1, ih.2.1, ih.2.2]
      exact ⟨rfl, rfl, rfl⟩

end Cert.ReferenceIdeal.RefValue

end
-- ==== Proof.RefValueOut.lean ====
/-
  The output array after the region.

  Only a core's last step (points 15 and 31) stores into the output block and only there is it written back, to
  out[core, :, :, :]: component k of the block holds, at every sublane and lane, the total over the 2048 x 128 entries of
  accumulator k, which by then is the sum of the core's sixteen terms at each entry. The two blocks cover the array, so the
  array ends holding, at (core, k, sublane, lane), the total of term k over the core's sixteen steps and all rows and lanes.
-/
import proofs.«151391_g2000509514383055_pallasbulk_1306_2_alg».proof.Proof.RefValueInv

set_option maxRecDepth 16384

noncomputable section

namespace Cert.ReferenceIdeal.RefValue

open Idealize.ShloMosaic Idealize.ShloMosaic.TcCoe Idealize.SL.Sem
open Idealize.ShloMosaic.ValueIdx
open Idealize.ShloMosaic.Pipeline (Dat)
open Cert.ReferenceIdeal Cert.ReferenceIdeal.Gen
open scoped BigOperators

variable (m : (ℓ : Loc nD τ sig) → Buf (Elt Ideal) ℓ)

/-- The total of component k's terms over the sixteen steps of core q and all rows and lanes of a block. -/
def coreTotal (c : Dev nD) (k q : ℕ) : EReal :=
  ∑ r : Fin 2048, ∑ l : Fin 128, ∑ s ∈ Finset.range 16, addend m c k (16 * q + s) r l

/-- The output array: at (core, component, sublane, lane), the core's total of that component. -/
def outArr (c : Dev nD) : FVec Ideal S2x3x8x128 .f32 := fun y =>
  sel3 (y 1).val (coreTotal m c 0 (y 0).val) (coreTotal m c 1 (y 0).val) (coreTotal m c 2 (y 0).val)

/-- The output window's block index at point t: the core's number on the first axis, zero on the others. -/
theorem idx_facts2 : ∀ t : Fin cfg0.N, win0_2.index t 0 = t.val / 16 ∧ win0_2.index t 1 = 0 ∧ win0_2.index t 2 = 0 ∧ win0_2.index t 3 = 0 :=
  (by decide +kernel : ∀ t : Fin grid0.N, win0_2.index t 0 = t.val / 16 ∧ win0_2.index t 1 = 0 ∧ win0_2.index t 2 = 0 ∧ win0_2.index t 3 = 0)

/-- The total of each accumulator after a core's last step is that core's total. -/
theorem total_last (c : Dev nD) (t : Fin cfg0.N) (h1 : t.val % 16 = 15) :
    blockTotal (acc0 m c t.val t.isLt) = coreTotal m c 0 (t.val / 16)
    ∧ blockTotal (acc1 m c t.val t.isLt) = coreTotal m c 1 (t.val / 16)
    ∧ blockTotal (acc2 m c t.val t.isLt) = coreTotal m c 2 (t.val / 16) := by
  have hb : t.val - 15 = 16 * (t.val / 16) := by omega
  refine ⟨?_, ?_, ?_⟩
  · rw [blockTotal_eq]; unfold coreTotal
    refine Finset.sum_congr rfl fun r _ => Finset.sum_congr rfl fun l _ => ?_
    rw [(acc_eq m c t.val t.isLt r l).1, h1, hb]
  · rw [blockTotal_eq]; unfold coreTotal
    refine Finset.sum_congr rfl fun r _ => Finset.sum_congr rfl fun l _ => ?_
    rw [(acc_eq m c t.val t.isLt r l).2.1, h1, hb]
  · rw [blockTotal_eq]; unfold coreTotal
    refine Finset.sum_congr rfl fun r _ => Finset.sum_congr rfl fun l _ => ?_
    rw [(acc_eq m c t.val t.isLt r l).2.2, h1, hb]

/-- What a core's last step leaves in the output block: component k, at every sublane and lane, the total of accumulator k. -/
theorem out_last (c : Dev nD) (t : Fin cfg0.N) (h0 : ¬t.val % 16 = 0) (h1 : t.val % 16 = 15) :
    ((outsAt0 m c t.val t.isLt).1 : Vec Ideal S1x3x8x128 .f32)
      = fun y => sel3 (y 1).val (blockTotal (acc0 m c t.val t.isLt)) (blockTotal (acc1 m c t.val t.isLt)) (blockTotal (acc2 m c t.val t.isLt)) := by
  unfold acc0 acc1 acc2
  rw [outsAt0_C m c t h0 h1]
  dsimp only
  rw [out_C (F := Ideal) c (grid0.coords t) (ms0_0 t) (hs0_0 t) (ms0_1 t) (hs0_1 t) (ms0_2 t) (hs0_2 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    scratch_C_0 (F := Ideal) c (grid0.coords t) (ms0_0 t) (hs0_0 t) (ms0_1 t) (hs0_1 t) (ms0_2 t) (hs0_2 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    scratch_C_1 (F := Ideal) c (grid0.coords t) (ms0_0 t) (hs0_0 t) (ms0_1 t) (hs0_1 t) (ms0_2 t) (hs0_2 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    scratch_C_2 (F := Ideal) c (grid0.coords t) (ms0_0 t) (hs0_0 t) (ms0_1 t) (hs0_1 t) (ms0_2 t) (hs0_2 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

/-- What a core's last step writes back is its block of the output array. -/
theorem flushed_eq (c : Dev nD) (t : Fin cfg0.N) (hf : (cfg0.win 2).flush t = true) :
    (dats m 0 c).flushed 2 t = ((cfg0.win 2).blk t).view.read (Elt Ideal) (outArr m c) := by
  have h1 : t.val % 16 = 15 := (flush0_2 t).mp hf
  have h0 : ¬t.val % 16 = 0 := by omega
  show (cfg0.win 2).cut (grid0.coords t) ((dats m 0 c).after 2 t) = _
  rw [after0_2, out_last m c t h0 h1]
  obtain ⟨t0, t1, t2⟩ := total_last m c t h1
  rw [t0, t1, t2]
  obtain ⟨e0, e1, e2, e3⟩ := idx_facts2 t
  funext y
  show sel3 (y 1).val _ _ _ = outArr m c (((cfg0.win 2).blk t).view.emb y)
  unfold outArr
  have a0 : ((((cfg0.win 2).blk t).view.emb y) 0).val = t.val / 16 := by
    have hy : (y 0).val < 1 := (y 0).isLt
    show win0_2.index t 0 * 1 + 1 * (y 0).val = t.val / 16
    omega
  have a1 : ((((cfg0.win 2).blk t).view.emb y) 1).val = (y 1).val := by
    show win0_2.index t 1 * 3 + 1 * (y 1).val = (y 1).val
    omega
  rw [a0, a1]

/-- An index of the output array is in point t's block iff each coordinate is in the block's range on its axis. -/
theorem mem_blk (t : Fin cfg0.N) (i : S2x3x8x128.Idx) :
    i ∈ ((cfg0.win 2).blk t).view.set ↔ ∀ a : Fin 4, win0_2.index t a * S1x3x8x128.size a ≤ (i a).val ∧ (i a).val < win0_2.index t a * S1x3x8x128.size a + S1x3x8x128.size a := by
  show i ∈ ((View.whole main_v4).slice (win0_2.rect t)).set ↔ _
  rw [View.set_slice_whole, Rect.mem_set_unit]
  exact Iff.rfl

/-- Every entry (core, ·, ·, ·) of the output array is written back by that core's last step. -/
theorem cover (i : S2x3x8x128.Idx) : ∃ t : Fin cfg0.N, (cfg0.win 2).flush t = true ∧ i ∈ ((cfg0.win 2).blk t).view.set := by
  have hN : cfg0.N = 32 := N_0
  have hi0 : (i 0).val < 2 := (i 0).isLt
  have hi1 : (i 1).val < 3 := (i 1).isLt
  have hi2 : (i 2).val < 8 := (i 2).isLt
  have hi3 : (i 3).val < 128 := (i 3).isLt
  have hlt : 16 * (i 0).val + 15 < cfg0.N := by omega
  obtain ⟨e0, e1, e2, e3⟩ := idx_facts2 ⟨16 * (i 0).val + 15, hlt⟩
  have e0' : win0_2.index ⟨16 * (i 0).val + 15, hlt⟩ 0 = (i 0).val := by
    rw [e0]; show (16 * (i 0).val + 15) / 16 = (i 0).val; omega
  refine ⟨⟨16 * (i 0).val + 15, hlt⟩, (flush0_2 _).mpr (by show (16 * (i 0).val + 15) % 16 = 15; omega), ?_⟩
  rw [mem_blk]
  intro a
  match a with
  | ⟨0, _⟩ => show win0_2.index ⟨16 * (i 0).val + 15, hlt⟩ 0 * 1 ≤ (i 0).val ∧ (i 0).val < win0_2.index ⟨16 * (i 0).val + 15, hlt⟩ 0 * 1 + 1; rw [e0']; omega
  | ⟨1, _⟩ => show win0_2.index ⟨16 * (i 0).val + 15, hlt⟩ 1 * 3 ≤ (i 1).val ∧ (i 1).val < win0_2.index ⟨16 * (i 0).val + 15, hlt⟩ 1 * 3 + 3; rw [e1]; omega
  | ⟨2, _⟩ => show win0_2.index ⟨16 * (i 0).val + 15, hlt⟩ 2 * 8 ≤ (i 2).val ∧ (i 2).val < win0_2.index ⟨16 * (i 0).val + 15, hlt⟩ 2 * 8 + 8; rw [e2]; omega
  | ⟨3, _⟩ => show win0_2.index ⟨16 * (i 0).val + 15, hlt⟩ 3 * 128 ≤ (i 3).val ∧ (i 3).val < win0_2.index ⟨16 * (i 0).val + 15, hlt⟩ 3 * 128 + 128; rw [e3]; omega

/-- The output array after the region: each core's three totals, at every sublane and lane. -/
theorem final (c : Dev nD) : (dats m 0 c).arrAt 2 cfg0.N = outArr m c :=
  (dats m 0 c).arrAt_eq_of_cover 2 (outArr m c) (flushed_eq m c) cover

end Cert.ReferenceIdeal.RefValue

end
-- ==== Proof.RefValueTail.lean ====
/-
  The host operations after the region: from the output array to the result.

  The host takes entry [core, k, 0, 0] of the output array for each core and component, adds the two cores' entries from
  zero into a vector of three, and applies the scalar arithmetic to it. Core q's entry is the total of term k over its
  sixteen steps and all rows and lanes of a block, that is over the rows (16 q + i) * 2048 + r; the two cores together
  run over every row once, so component k of the vector is the plain total of term k over all 65536 x 128 entries.
-/
import proofs.«151391_g2000509514383055_pallasbulk_1306_2_alg».proof.Proof.RefValueOut
import proofs.«151391_g2000509514383055_pallasbulk_1306_2_alg».proof.Proof.SpecSums
import Idealize.ShloMosaic.Lib.StableHlo.Run
import Idealize.ShloMosaic.Lib.IdealHost

set_option maxRecDepth 16384

noncomputable section

namespace Cert.ReferenceIdeal.RefValue

open Idealize.ShloMosaic Idealize.ShloMosaic.TcCoe Idealize.SL.Sem
open Idealize.ShloMosaic.ValueIdx
open Idealize.ShloMosaic.Pipeline (Dat)
open Cert.ReferenceIdeal Cert.ReferenceIdeal.Gen
open scoped BigOperators

variable (m : (ℓ : Loc nD τ sig) → Buf (Elt Ideal) ℓ)

/-- One of three values picked by a number below three is the value at that number. -/
theorem sel3_apply {α : Type} (f : ℕ → α) (k : Fin 3) : sel3 k.val (f 0) (f 1) (f 2) = f k.val := by
  unfold sel3
  match k with
  | ⟨0, _⟩ => rfl
  | ⟨1, _⟩ => rfl
  | ⟨2, _⟩ => rfl

/-- The two cores' totals of component k add up to the plain total of term k over all 65536 x 128 entries: core q's sixteen
    steps read the rows (16 q + i) * 2048 + r. -/
theorem coreTotal_sum (c : Dev nD) (k : ℕ) :
    ∑ q : Fin 2, coreTotal m c k q.val = Nmse.total (Nmse.term (Parr m c) (Tarr m c) k) := by
  rw [← Nmse.ref_sum]
  refine Finset.sum_congr rfl fun q _ => ?_
  unfold coreTotal
  refine Finset.sum_congr rfl fun r _ => Finset.sum_congr rfl fun l _ => ?_
  rw [Finset.sum_range]
  refine Finset.sum_congr rfl fun i _ => ?_
  have hq : 16 * q.val + i.val < 32 := by have := q.isLt; have := i.isLt; omega
  unfold addend
  rw [dif_pos hq]
  exact congrArg (fun R => Nmse.term (Parr m c) (Tarr m c) k R l)
    (Fin.ext (by show (16 * q.val + i.val) * 2048 + r.val = (q.val * 16 + i.val) * 2048 + r.val; omega))

/-- The vector of three the host forms from the output array: entry [core, k, 0, 0] of each core, added over the cores
    from zero. -/
def hostSums (OUT : FVec Ideal S2x3x8x128 .f32) : FVec Ideal S3 .f32 :=
  Host.reduceAdd (F := Ideal)
    (shapeCast S2x3 (extractStridedSlice S2x3x1x1 ![0, 0, 0, 0] OUT slices_S2x3x8x128_S2x3x1x1_0_0_0_0) shapeCasts_S2x3x1x1_S2x3)
    (constant (F := Ideal) S_ .f32 0x00000000#32) reducesTo_S2x3_S3_d0 h_S_

theorem reduces_S2x3 : S2x3.Reduces [0] S3 := by decide

/-- Component k of that vector is the sum over the two cores of entry [core, k, 0, 0]. -/
theorem hostSums_apply (OUT : FVec Ideal S2x3x8x128 .f32) (k : Fin 3) :
    hostSums OUT (ix1 k) = ∑ q : Fin 2, OUT (ix4 q k (0 : Fin 8) (0 : Fin 128)) := by
  unfold hostSums
  refine (hostReduceAdd_apply _ _ reducesTo_S2x3_S3_d0 h_S_ (ix1 k)).trans ?_
  refine (Ideal.hostReduceAdd_single reducesTo_S2x3_S3_d0 reduces_S2x3 _ _ (ix1 k)).trans ?_
  show Ideal.ofBits .f32 0x00000000#32 + _ = _
  rw [Ideal.ofBits_zero_f32, zero_add]
  refine Finset.sum_congr rfl fun q _ => ?_
  refine (shapeCast_apply _ shapeCasts_S2x3x1x1_S2x3 (reduces_S2x3.lift (ix1 k) q) (ix4 q k (0 : Fin 1) (0 : Fin 1)) ?_).trans ?_
  · rw [Shape.rowMajor_val_four, Shape.rowMajor_val_two]
    show ((q.val * 3 + k.val) * 1 + 0) * 1 + 0 = q.val * 3 + k.val
    omega
  · refine extractStridedSlice_apply ![0, 0, 0, 0] OUT slices_S2x3x8x128_S2x3x1x1_0_0_0_0 (ix4 q k (0 : Fin 1) (0 : Fin 1)) (ix4 q k (0 : Fin 8) (0 : Fin 128)) fun a => ?_
    match a with
    | ⟨0, _⟩ => show q.val = 0 + q.val; omega
    | ⟨1, _⟩ => show k.val = 0 + k.val; omega
    | ⟨2, _⟩ => rfl
    | ⟨3, _⟩ => rfl

/-- So from the output array the region leaves the host forms the three plain totals. -/
theorem hostSums_out (c : Dev nD) : hostSums (outArr m c) = Nmse.sums (Parr m c) (Tarr m c) := by
  funext j
  obtain ⟨k, rfl⟩ : ∃ k : Fin 3, j = ix1 k := ⟨j 0, eq_ix1 j⟩
  rw [hostSums_apply]
  show ∑ q : Fin 2, sel3 k.val (coreTotal m c 0 q.val) (coreTotal m c 1 q.val) (coreTotal m c 2 q.val) = Nmse.total (Nmse.term (Parr m c) (Tarr m c) k.val)
  rw [← coreTotal_sum]
  exact Finset.sum_congr rfl fun q _ => sel3_apply (fun k => coreTotal m c k q.val) k

/-- The host operations after the region, applied to what the region leaves: the scalar arithmetic of the three totals. -/
theorem tail_eq (c : Dev nD) :
    Pipeline.afterTail₀ cfgs (dats m) 0 (V0 m) [hostOps1] c main_v19
      = Nmse.tail slices_S3_S1_0 slices_S3_S1_1 slices_S3_S1_2 shapeCasts_S1_S_ (Nmse.sums (Parr m c) (Tarr m c)) := by
  rw [← hostSums_out m c, ← final m c,
    ← Pipeline.withArrays_arr spec0 launch0.win.arr_inj c (V0 m c) (fun w => (dats m 0 c).arrAt w (cfgs 0).N) 2]
  unfold Pipeline.afterTail₀
  show StableHlo.after hostOps1 _ (Proc.devRef .tc main_v19) = _
  after_results
  generalize Pipeline.withArrays (cfgs 0).spec c (V0 m c) (fun w => (dats m 0 c).arrAt w (cfgs 0).N) (Proc.tc.devRef main_v4) = OUT
  rfl

end Cert.ReferenceIdeal.RefValue

end
-- ==== Proof.RefValue.lean ====
/-
  What the reference program computes at the ideal instance: its final scalar as the one function `Nmse.result` of the two
  argument arrays.

  The region leaves, at out[core, k, :, :], the total of term k over the core's sixteen blocks of 2048 rows; the host adds
  the two cores' entries into the three plain totals and applies the scalar arithmetic; the two arguments are read only.
-/
import proofs.«151391_g2000509514383055_pallasbulk_1306_2_alg».proof.Proof.Gen.ReferenceIdeal.Frame
import proofs.«151391_g2000509514383055_pallasbulk_1306_2_alg».proof.Proof.Spec
import proofs.«151391_g2000509514383055_pallasbulk_1306_2_alg».proof.Proof.SpecSums
import proofs.«151391_g2000509514383055_pallasbulk_1306_2_alg».proof.Proof.RefValueTail

set_option maxRecDepth 16384

noncomputable section

namespace Cert.ReferenceIdeal.RefValue

open Idealize.ShloMosaic Idealize.ShloMosaic.TcCoe Idealize.SL.Sem
open Cert.ReferenceIdeal Cert.ReferenceIdeal.Gen

/-- The reference's run at the ideal instance: it terminates with its result at `Nmse.result` of the argument arrays, the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19)
          = Nmse.result Gen.shapeCasts_S2048x4096_S8388608 Gen.shapeCasts_S8388608_S65536x128 Gen.slices_S3_S1_0 Gen.slices_S3_S1_1 Gen.slices_S3_S1_2 Gen.shapeCasts_S1_S_
              (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v19 (Pipeline.mem_restRefs_of main_v19 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (Gen.run_main m ρ)

end Cert.ReferenceIdeal.RefValue

end
-- ==== Proof.lean ====
/-
  The certificate of a streaming normalised-mean-squared-error kernel against a second streaming kernel for the same loss.

  Both programs lay the two f32[2048, 4096] arguments p and t out as 65536 rows of 128 lanes and compute three totals over all
  entries — of (p - t)^2, of t and of t^2 — and from them, with the exact binary constant 2^-23 (one over the entry count), the
  scalar (S0 * 2^-23) / (S2 * 2^-23 - (S1 * 2^-23)^2). They differ in the bracketing of the totals. The kernel splits the rows
  between two cores, each taking eight blocks of 4096 rows; a block is folded to 8 x 128 partial sums (row g * 8 + s goes to sublane s),
  the partial sums are accumulated over the eight steps, and the host adds the two cores' 8 x 128 partials. The reference takes
  sixteen blocks of 2048 rows per core, accumulates them entry by entry into a 2048 x 128 buffer, adds that buffer up at the last step,
  and the host adds the two cores' totals. Addition of extended reals is commutative and associative, so all bracketings give the plain
  totals (Proof/SpecSums.lean), and the two results are one function of the arguments (`Nmse.result`, Proof/Spec.lean); the
  precondition (finite inputs) is not needed for that.
  The frames: the reference's is its generated frame; the kernel's region carries its accumulator from one grid point to the next
  under conditionals on the step coordinate, and its body is run case by case in Proof/KernelIdeal (read at the ideal instance) and
  Proof/Kernel (the word-level program: the same text in the other namespace). The ideal pass rewrote nothing, so `preserves` is trivial.
-/
import proofs.«151391_g2000509514383055_pallasbulk_1306_2_alg».proof.Defs
import proofs.«151391_g2000509514383055_pallasbulk_1306_2_alg».proof.Proof.Gen.Kernel
import proofs.«151391_g2000509514383055_pallasbulk_1306_2_alg».proof.Proof.Gen.KernelIdeal
import proofs.«151391_g2000509514383055_pallasbulk_1306_2_alg».proof.Proof.Gen.ReferenceIdeal
import proofs.«151391_g2000509514383055_pallasbulk_1306_2_alg».proof.Proof.Gen.ReferenceIdeal.Frame
import proofs.«151391_g2000509514383055_pallasbulk_1306_2_alg».proof.Proof.Gen.Pre_finite_inputs
import proofs.«151391_g2000509514383055_pallasbulk_1306_2_alg».proof.Proof.Kernel.Frame
import proofs.«151391_g2000509514383055_pallasbulk_1306_2_alg».proof.Proof.KernelIdeal.Frame
import proofs.«151391_g2000509514383055_pallasbulk_1306_2_alg».proof.Proof.KernelValue
import proofs.«151391_g2000509514383055_pallasbulk_1306_2_alg».proof.Proof.RefValue

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Body.frame (F := Bits) m ρ
/-- So does the program read at the ideal instance. -/
theorem frame_kernelIdeal : Cert.frame_KernelIdeal := fun m ρ _ => Cert.KernelIdeal.Body.frame (F := Ideal) m ρ
/-- And the reference. -/
theorem frame_referenceIdeal : Cert.frame_ReferenceIdeal := fun m ρ _ => Cert.ReferenceIdeal.Gen.frame m ρ

/-- The ideal pass rewrote no operation. -/
theorem preserves : Cert.preserves_Kernel_KernelIdeal := trivial

/-- At the ideal instance both programs end at `Nmse.result` of their argument arrays, which agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
